-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x128 .f32) (main_arg1 : FVec F S4x4096x4096 .f32) (main_arg2 : FVec F S4x128x128 .f32) (main_arg3 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S1x128 : Shape := ⟨2, ![1, 128]⟩
abbrev S1x1024x4096 : Shape := ⟨3, ![1, 1024, 4096]⟩
abbrev S1x128x128 : Shape := ⟨3, ![1, 128, 128]⟩
abbrev S128x128 : Shape := ⟨2, ![128, 128]⟩
abbrev S1024x128 : Shape := ⟨2, ![1024, 128]⟩
abbrev S1024x4096 : Shape := ⟨2, ![1024, 4096]⟩

abbrev nBuf : Space → Nat
  | .hbm => 6
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S4096x128, .f32⟩
  | .local _ .vmem, ⟨1, _⟩ => ⟨S1x1024x4096, .f32⟩
  | .local _ .vmem, ⟨2, _⟩ => ⟨S1x1024x4096, .f32⟩
  | .local _ .vmem, ⟨3, _⟩ => ⟨S4x128x128, .f32⟩
  | .local _ .vmem, ⟨4, _⟩ => ⟨S1x128, .f32⟩
  | .local _ .vmem, ⟨5, _⟩ => ⟨S4096x128, .f32⟩
  | .local _ .vmem, ⟨6, _⟩ => ⟨S4096x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let v19 : Index := Scalar.indexCast arg0
  let c0_10 : Index := 0#32
  let c0_11 : Index := 0#32
  ![v19.toNat, 0, 0]
def k0_off2 (i : grid0.Coords) : Fin 2 → Nat :=
  let arg1 : BitVec 32 := BitVec.ofNat 32 (i 1).val
  let c1024_i32 : BitVec 32 := 1024#32
  let v8 : BitVec 32 := Scalar.muli arg1 c1024_i32
  let v9 : Index := Scalar.indexCast v8
  let c0 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S128_S1x128 : S128.ShapeCasts S1x128
  h_S1x128x128 : 0 < S1x128x128.numel
  shapeCasts_S1x128x128_S128x128 : S1x128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  h_S1024x128 : 0 < S1024x128.numel
  shapeCasts_S1024x128_S1024x128 : S1024x128.ShapeCasts S1024x128
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  dot_S4096x128_S128x128_S4096x128_1_0_0_1_n_n_wf : DotDims.WF S4096x128 S128x128 S4096x128 [1] [0] [0] [1] [] []
  dot_S1024x4096_S4096x128_S1024x128_1_0_0_1_n_n_wf : DotDims.WF S1024x4096 S4096x128 S1024x128 [1] [0] [0] [1] [] []
  hrank0 : 0 < grid0.rank
  k0_off1_inb : ∀ i : grid0.Coords, ∀ (k0_h1 : k0_cond1 i = 1#1), ∀ a, (k0_off1 i) a + S1x128x128.size a ≤ S4x128x128.size a
  k0_off2_inb : ∀ i : grid0.Coords, ∀ a, (k0_off2 i) a + S1024x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S4x4096x4096.size a
  hwx0_1 : ∀ i : grid0.Coords, EltTy.bits .f32 = 32 ∨ (Rect.block (s := S4x4096x4096) S1x1024x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S4096x128.size a
  hwx0_4 : ∀ i : grid0.Coords, EltTy.bits .f32 = 32 ∨ (Rect.block (s := S4096x128) S4096x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x128 : Shape := ⟨2, ![4096, 128]⟩
abbrev S4x4096x4096 : Shape := ⟨3, ![4, 4096, 4096]⟩
abbrev S4x128x128 : Shape := ⟨3, ![4, 128, 128]⟩
abbrev S128 : Shape := ⟨1, ![128]⟩
abbrev S1x128x128 : Shape := ⟨3, ![1, 128, 128]⟩
abbrev S128x128 : Shape := ⟨2, ![128, 128]⟩
abbrev S1x4096x4096 : Shape := ⟨3, ![1, 4096, 4096]⟩
abbrev S4096x4096 : Shape := ⟨2, ![4096, 4096]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x128, .f32⟩
  | .hbm, ⟨3, _⟩ => ⟨S128, .f32⟩
  | .hbm, ⟨4, _⟩ => ⟨S1x128x128, .f32⟩
  | .hbm, ⟨5, _⟩ => ⟨S128x128, .f32⟩
  | .hbm, ⟨6, _⟩ => ⟨S4096x128, .f32⟩
  | .hbm, ⟨7, _⟩ => ⟨S1x4096x4096, .f32⟩
  | .hbm, ⟨8, _⟩ => ⟨S4096x4096, .f32⟩
  | .hbm, ⟨9, _⟩ => ⟨S4096x128, .f32⟩
  | .hbm, ⟨10, _⟩ => ⟨S1x128x128, .f32⟩
  | .hbm, ⟨11, _⟩ => ⟨S128x128, .f32⟩
  | .hbm, ⟨12, _⟩ => ⟨S4096x128, .f32⟩
  | .hbm, ⟨13, _⟩ => ⟨S1x4096x4096, .f32⟩
  | .hbm, ⟨14, _⟩ => ⟨S4096x4096, .f32⟩
  | .hbm, ⟨15, _⟩ => ⟨S4096x128, .f32⟩
  | .hbm, ⟨16, _⟩ => ⟨S1x128x128, .f32⟩
  | .hbm, ⟨17, _⟩ => ⟨S128x128, .f32⟩
  | .hbm, ⟨18, _⟩ => ⟨S4096x128, .f32⟩
  | .hbm, ⟨19, _⟩ => ⟨S1x4096x4096, .f32⟩
  | .hbm, ⟨20, _⟩ => ⟨S4096x4096, .f32⟩
  | .hbm, ⟨21, _⟩ => ⟨S4096x128, .f32⟩
  | .hbm, ⟨22, _⟩ => ⟨S1x128x128, .f32⟩
  | .hbm, ⟨23, _⟩ => ⟨S128x128, .f32⟩
  | .hbm, ⟨24, _⟩ => ⟨S4096x128, .f32⟩
  | .hbm, ⟨25, _⟩ => ⟨S1x4096x4096, .f32⟩
  | .hbm, ⟨26, _⟩ => ⟨S4096x4096, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S4096x128, .f32⟩
  | .hbm, ⟨31, _⟩ => ⟨S1x128, .f32⟩
  | .hbm, ⟨32, _⟩ => ⟨S4096x128, .f32⟩
  | .hbm, ⟨33, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]

class Facts₀ : Prop where
  slices_S4x128x128_S1x128x128_0_0_0 : S4x128x128.Slices ![0, 0, 0] S1x128x128
  shapeCasts_S1x128x128_S128x128 : S1x128x128.ShapeCasts S128x128
  slices_S4x4096x4096_S1x4096x4096_0_0_0 : S4x4096x4096.Slices ![0, 0, 0] S1x4096x4096
  shapeCasts_S1x4096x4096_S4096x4096 : S1x4096x4096.ShapeCasts S4096x4096
  slices_S4x128x128_S1x128x128_1_0_0 : S4x128x128.Slices ![1, 0, 0] S1x128x128
  slices_S4x4096x4096_S1x4096x4096_1_0_0 : S4x4096x4096.Slices ![1, 0, 0] S1x4096x4096
  slices_S4x128x128_S1x128x128_2_0_0 : S4x128x128.Slices ![2, 0, 0] S1x128x128
  slices_S4x4096x4096_S1x4096x4096_2_0_0 : S4x4096x4096.Slices ![2, 0, 0] S1x4096x4096
  slices_S4x128x128_S1x128x128_3_0_0 : S4x128x128.Slices ![3, 0, 0] S1x128x128
  slices_S4x4096x4096_S1x4096x4096_3_0_0 : S4x4096x4096.Slices ![3, 0, 0] S1x4096x4096
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KernelBody.Defs.lean ====
/-
  What one grid point of the convolution kernel does to its two carried buffers, as pure functions of what it loads.
  The grid is (degree i, row tile r). At tile 0 of a degree the support matrix X · W_i is stored whole into the
  scratch; at the very first point the output is first set to the bias row on every row; at every point the rows
  [1024 r, 1024 r + 1024) of the output are replaced by themselves plus the adjacency tile against the scratch, the
  other rows kept. So one point is: support := X · W_i or kept; output := rows r of the base updated, where the base is
  the bias rows at the first point and the previous output afterwards.
-/
import proofs.«167788_g32186484916413_cont_8to1_b_1688_10_alg».proof.Proof.Gen.Kernel.Frame
import proofs.«167788_g32186484916413_cont_8to1_b_1688_10_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch: the row tile is 0. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch: degree 0 and row tile 0. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_1 : ∀ t : Fin cfg0.N, cond0_1 (grid0.coords t) ↔ t.val % 16 = 0 :=
  (by decide +kernel : ∀ t : Fin grid0.N, cond0_1 (grid0.coords t) ↔ t.val % 16 = 0)

/-! ## The staging memrefs at a point, and the scratch -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
/-- The scratch that holds the support matrix: a whole scoped buffer of the kernel's own. -/
abbrev scM0_0 : Memref sig .tc .vmem S4096x128 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point as pure functions -/

theorem hz2 : (![0, 0] : Fin 2 → ℕ) = fun _ => 0 := by funext a; fin_cases a <;> rfl
theorem hz3 : (![0, 0, 0] : Fin 3 → ℕ) = fun _ => 0 := by funext a; fin_cases a <;> rfl

/-- Rows [1024 r, 1024 r + 1024) of `base` replaced by the tile `blk`, the other rows kept. -/
def setRows (i : grid0.Coords) (base : Vec F S4096x128 .f32) (blk : Vec F S1024x128 .f32) : Vec F S4096x128 .f32 :=
  fun y =>
    if h : 1024 * (i 1).val ≤ (y (0 : Fin 2)).val ∧ (y (0 : Fin 2)).val < 1024 * (i 1).val + 1024 then
      blk (Rect.unitLocal (s := S4096x128) (off := ![1024 * (i 1).val, 0]) (size := S1024x128.size) y
        (Rect.unit_rows_mem y rfl rfl h))
    else base y

/-- The row tile of the point, as the rectangle the body loads and stores through. -/
abbrev rowsRect (i : grid0.Coords) : Rect S4096x128 := Rect.unit (k0_off2 i) S1024x128.size (k0_off2_inb i)

/-- The output after a point: the row tile of `base` plus the adjacency tile against the support, the rest of `base`. -/
def stepOut (i : grid0.Coords) (base : Vec F S4096x128 .f32) (adjBlk : Vec F S1x1024x4096 .f32) (sup : Vec F S4096x128 .f32) :
    Vec F S4096x128 .f32 :=
  setRows i base (k0_pay3 (View.ld base (rowsRect i)) adjBlk sup)

/-- The support matrix of the point's degree: the input against that degree's weight slice. -/
def supOf (i : grid0.Coords) (h : cond0_0 i) (x : Vec F S4096x128 .f32) (w : Vec F S4x128x128 .f32) : Vec F S4096x128 .f32 :=
  k0_pay1 (View.ld w (Rect.unit (k0_off1 i) S1x128x128.size (k0_off1_inb i h))) x

/-! ## Reading back what the stores leave -/

/-- After a store of the row tile made last, the buffer reads as the earlier contents with that tile replaced. -/
theorem read_rows_cons {κ : Kind} {sp : Space} (v : View sig κ sp S4096x128 .f32) (f : v.ty.Contents (Elt F)) (i : grid0.Coords)
    (w : (rowsRect i).shape.Idx → Elt F .f32) (L : List (View.Piece (Elt F) S4096x128 .f32)) :
    v.read (Elt F) (v.writes (Elt F) f ((⟨rowsRect i, w⟩ : View.Piece (Elt F) S4096x128 .f32) :: L))
      = setRows i (v.read (Elt F) (v.writes (Elt F) f L)) w := by
  funext y
  rw [View.read_writes_cons_rows v f (k0_off2_inb i) w L y (k0_off2_eq i) rfl rfl]
  rfl

/-- After a store of the whole buffer made last, the buffer reads as the stored value. -/
theorem read_whole_cons {κ : Kind} {sp : Space} (v : View sig κ sp S4096x128 .f32) (f : v.ty.Contents (Elt F))
    (w : Vec F S4096x128 .f32) (L : List (View.Piece (Elt F) S4096x128 .f32)) :
    v.read (Elt F) (v.writes (Elt F) f ((⟨Rect.unit ![0, 0] S4096x128.size inb_S4096x128_S4096x128_0_0, w⟩ : View.Piece (Elt F) S4096x128 .f32) :: L))
      = w :=
  funext fun y => View.read_writes_cons_unit_of_mem v f inb_S4096x128_S4096x128_0_0 w L y y hz2 (fun a => (Nat.zero_add _).symm)

end Cert.Kernel.Body

end
-- ==== Proof.KernelBody.RunA.lean ====
/-
  The body at the first point: the scratch is stored whole with the support matrix of degree 0, the output is
  stored whole with the bias row on every row, then row tile 0 is replaced by itself plus the adjacency tile
  against the support. What the two buffers held before is not used.
-/
import proofs.«167788_g32186484916413_cont_8to1_b_1688_10_alg».proof.Proof.KernelBody.Defs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point the body stores the degree-0 support, sets every output row to the bias, and updates row tile 0. -/
theorem runA (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i (k0_pay2 x3) x1 (supOf i hc0 x0 x2)) ∗ owns (c : Thread nD τ) arg7 fullShare (supOf i hc0 x0 x2)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      refine (read_rows_cons arg6.view _ i _ _).trans ?_
      unfold stepOut supOf
      simp only [View.readAt_eq_ld, harg3.read_unread, harg2.read_unread, harg4.read_unread, harg5.read_unread,
        View.readCov_unit_zero (S := S4096x128) _ hz2,
        View.ld_unit_zero (S := S1x1024x4096) hz3, View.ld_unit_zero (S := S4096x128) hz2, View.ld_unit_zero (S := S1x128) hz2]
      have e : View.read (Elt F) arg6.view (arg6.view.writes (Elt F) arg6.view.junk
          [(⟨Rect.unit ![0, 0] S4096x128.size inb_S4096x128_S4096x128_0_0, k0_pay2 x3⟩ : View.Piece (Elt F) S4096x128 .f32)])
            = k0_pay2 x3 := read_whole_cons arg6.view _ _ []
      exact congrArg (fun b : Vec F S4096x128 .f32 => setRows i b (k0_pay3 (View.ld b (rowsRect i)) x1
        (k0_pay1 (View.ld x2 (Rect.unit (k0_off1 i) S1x128x128.size (k0_off1_inb i hc0))) x0))) e
    iexists _; isplitr; swap; · iexact HS0
    ipureintro
    sl_unfold_run_names
    refine (read_whole_cons arg7.view _ _ []).trans ?_
    unfold supOf
    simp only [View.readAt_eq_ld, harg2.read_unread, harg4.read_unread, View.ld_unit_zero (S := S4096x128) hz2]

end Cert.Kernel.Body

end
-- ==== Proof.KernelBody.RunB.lean ====
/-
  The body at a point that is neither a tile 0 nor the first point: the support matrix in the scratch is kept, and
  the point's row tile of the output is replaced by itself plus the adjacency tile against that support.
-/
import proofs.«167788_g32186484916413_cont_8to1_b_1688_10_alg».proof.Proof.KernelBody.Defs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither a tile 0 nor the first, the body keeps the support and updates the point's row tile. -/
theorem runB (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i x4 x1 xs) ∗ owns (c : Thread nD τ) arg7 fullShare (xs)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_rows_cons arg6.view _ i _ []).trans ?_
      unfold stepOut
      simp only [View.writes_nil, View.readAt_eq_ld, harg6.read_unread, harg3.read_unread, harg7.read_unread,
        View.ld_unit_zero (S := S1x1024x4096) hz3, View.ld_unit_zero (S := S4096x128) hz2]
    iexists _; isplitr; swap; · iexact HS0
    ipureintro
    exact harg7.read_unread _

end Cert.Kernel.Body

end
-- ==== Proof.KernelBody.RunC.lean ====
/-
  The body at tile 0 of a degree other than the first point: the scratch is stored whole with the support matrix of
  the degree, then the point's row tile of the output is replaced by itself plus the adjacency tile against it.
-/
import proofs.«167788_g32186484916413_cont_8to1_b_1688_10_alg».proof.Proof.KernelBody.Defs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile 0 the body stores the support of the point's degree and updates the point's row tile. -/
theorem runC (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i x4 x1 (supOf i hc0 x0 x2)) ∗ owns (c : Thread nD τ) arg7 fullShare (supOf i hc0 x0 x2)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      refine (read_rows_cons arg6.view _ i _ []).trans ?_
      unfold stepOut supOf
      simp only [View.writes_nil, View.readAt_eq_ld, harg6.read_unread, harg3.read_unread, harg2.read_unread, harg4.read_unread,
        View.readCov_unit_zero (S := S4096x128) _ hz2,
        View.ld_unit_zero (S := S1x1024x4096) hz3, View.ld_unit_zero (S := S4096x128) hz2]
    iexists _; isplitr; swap; · iexact HS0
    ipureintro
    sl_unfold_run_names
    refine (read_whole_cons arg7.view _ _ []).trans ?_
    unfold supOf
    simp only [View.readAt_eq_ld, harg2.read_unread, harg4.read_unread, View.ld_unit_zero (S := S4096x128) hz2]

end Cert.Kernel.Body

end
-- ==== Proof.KernelBody.Frame.lean ====
/-
  The kernel's run over its sixteen grid points: what the output's staging buffer and the scratch hold after each
  point, by recursion on the point (the first point starts from the bias rows and the degree-0 support; a tile 0
  recomputes the support; every point updates its row tile over what the point before left), the region's
  invariant carrying the scratch at those contents, and from them that every execution terminates with the argument
  arrays unchanged and the output array at what the last point wrote back.
-/
import proofs.«167788_g32186484916413_cont_8to1_b_1688_10_alg».proof.Proof.KernelBody.RunA
import proofs.«167788_g32186484916413_cont_8to1_b_1688_10_alg».proof.Proof.KernelBody.RunB
import proofs.«167788_g32186484916413_cont_8to1_b_1688_10_alg».proof.Proof.KernelBody.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev blk0 (c : Dev nD) (t : Fin cfg0.N) : Vec F S4096x128 .f32 := iblk m c 0 t
abbrev blk1 (c : Dev nD) (t : Fin cfg0.N) : Vec F S1x1024x4096 .f32 := iblk m c 1 t
abbrev blk2 (c : Dev nD) (t : Fin cfg0.N) : Vec F S4x128x128 .f32 := iblk m c 2 t
abbrev blk3 (c : Dev nD) (t : Fin cfg0.N) : Vec F S1x128 .f32 := iblk m c 3 t

/-! ## What the two carried buffers hold after each point -/

/-- The output's staging buffer and the scratch after the body at position `n`: the first point from the bias rows
    and the degree-0 support; a later tile 0 with a fresh support; any other point with the support kept. -/
def outsAt (c : Dev nD) : (n : ℕ) → n < cfg0.N → Vec F S4096x128 .f32 × Vec F S4096x128 .f32
  | 0, hn =>
    (stepOut (grid0.coords ⟨0, hn⟩) (k0_pay2 (blk3 m c ⟨0, hn⟩)) (blk1 m c ⟨0, hn⟩)
        (supOf (grid0.coords ⟨0, hn⟩) ((hcond0_0 ⟨0, hn⟩).mpr (Nat.zero_mod _)) (blk0 m c ⟨0, hn⟩) (blk2 m c ⟨0, hn⟩)),
      supOf (grid0.coords ⟨0, hn⟩) ((hcond0_0 ⟨0, hn⟩).mpr (Nat.zero_mod _)) (blk0 m c ⟨0, hn⟩) (blk2 m c ⟨0, hn⟩))
  | n + 1, hn =>
    if h0 : (n + 1) % 4 = 0 then
      (stepOut (grid0.coords ⟨n + 1, hn⟩) (outsAt c n (Nat.lt_of_succ_lt hn)).1 (blk1 m c ⟨n + 1, hn⟩)
          (supOf (grid0.coords ⟨n + 1, hn⟩) ((hcond0_0 ⟨n + 1, hn⟩).mpr h0) (blk0 m c ⟨n + 1, hn⟩) (blk2 m c ⟨n + 1, hn⟩)),
        supOf (grid0.coords ⟨n + 1, hn⟩) ((hcond0_0 ⟨n + 1, hn⟩).mpr h0) (blk0 m c ⟨n + 1, hn⟩) (blk2 m c ⟨n + 1, hn⟩))
    else
      (stepOut (grid0.coords ⟨n + 1, hn⟩) (outsAt c n (Nat.lt_of_succ_lt hn)).1 (blk1 m c ⟨n + 1, hn⟩)
          (outsAt c n (Nat.lt_of_succ_lt hn)).2,
        (outsAt c n (Nat.lt_of_succ_lt hn)).2)

/-- At the first point. -/
theorem outsAt_first (c : Dev nD) (t : Fin cfg0.N) (hz : t.val = 0) (h0 : t.val % 4 = 0) :
    outsAt m c t.val t.isLt
      = (stepOut (grid0.coords t) (k0_pay2 (blk3 m c t)) (blk1 m c t)
            (supOf (grid0.coords t) ((hcond0_0 t).mpr h0) (blk0 m c t) (blk2 m c t)),
          supOf (grid0.coords t) ((hcond0_0 t).mpr h0) (blk0 m c t) (blk2 m c t)) := by
  obtain ⟨n, hn⟩ := t
  cases n with
  | zero => rfl
  | succ n => exact absurd hz (Nat.succ_ne_zero n)

/-- At a later tile 0: a fresh support, the row tile updated over what the point before left. -/
theorem outsAt_tile0 (c : Dev nD) (t : Fin cfg0.N) (hz : t.val ≠ 0) (h0 : t.val % 4 = 0) :
    outsAt m c t.val t.isLt
      = (stepOut (grid0.coords t) (outsAt m c (t.val - 1) (Nat.lt_of_le_of_lt (Nat.sub_le _ _) t.isLt)).1 (blk1 m c t)
            (supOf (grid0.coords t) ((hcond0_0 t).mpr h0) (blk0 m c t) (blk2 m c t)),
          supOf (grid0.coords t) ((hcond0_0 t).mpr h0) (blk0 m c t) (blk2 m c t)) := by
  obtain ⟨n, hn⟩ := t
  cases n with
  | zero => exact absurd rfl hz
  | succ n => exact (dif_pos h0).trans rfl

/-- At any other point: the support kept, the row tile updated over what the point before left. -/
theorem outsAt_other (c : Dev nD) (t : Fin cfg0.N) (h0 : ¬t.val % 4 = 0) :
    outsAt m c t.val t.isLt
      = (stepOut (grid0.coords t) (outsAt m c (t.val - 1) (Nat.lt_of_le_of_lt (Nat.sub_le _ _) t.isLt)).1 (blk1 m c t)
            (outsAt m c (t.val - 1) (Nat.lt_of_le_of_lt (Nat.sub_le _ _) t.isLt)).2,
          (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant, carrying the scratch -/

/-- Before the first point the scratch holds anything; before any later point, what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The proof data -/

/-- The arrays as the region finds them; after the body each input's buffer at its block and the output's at what
    the points so far accumulated; the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At the first point the output's staging buffer is fresh: it holds anything. -/
theorem before0_4_first (c : Dev nD) (t : Fin cfg0.N) (hz : t.val = 0) (d) : (dats m 0 c).before 4 t d = d :=
  Dat.before_out_reset _ 4 rfl t (.inl hz) d

/-- At a later point it holds what the body left at the point before: the buffer is written back only after the
    last point, the window is live and uncut. -/
theorem before0_4_later (c : Dev nD) (t : Fin cfg0.N) (hz : t.val ≠ 0) (d) :
    (dats m 0 c).before 4 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 4 rfl t hz (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2000000 in
/-- The body at any point: the inputs' buffers hold their blocks; the output's and the scratch hold what the point
    before left (anything at the first point); the point's case of the body applies and leaves both at this point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4]
  have hN : t.val < 16 := lt_of_lt_of_eq t.isLt (show cfg0.N = 16 from N_0)
  by_cases hz : t.val = 0
  · have h0 : t.val % 4 = 0 := by omega
    have h1 : t.val % 16 = 0 := by omega
    rw [outsAt_first m c t hz h0]; dsimp only
    rw [PhiS_castSucc m c t, PhiS_zero m c _ _ hz, PhiA0_eq]
    simp only [before0_4_first m c t hz]
    iintro ⟨⟨⟨%ds, HS0⟩, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((hcond0_0 t).mpr h0) ((hcond0_1 t).mpr h1) (blk0 m c t) (blk1 m c t) (blk2 m c t) (blk3 m c t) d4 ds Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [PhiS_castSucc m c t, PhiS_pos m c _ _ hz]
    simp only [before0_4_later m c t hz]
    have h1 : ¬t.val % 16 = 0 := by omega
    by_cases h0 : t.val % 4 = 0
    · rw [outsAt_tile0 m c t hz h0]; dsimp only
      iintro ⟨⟨HS0, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ ((hcond0_0 t).mpr h0) (fun h => h1 ((hcond0_1 t).mp h)) (blk0 m c t) (blk1 m c t) (blk2 m c t) (blk3 m c t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · rw [outsAt_other m c t h0]; dsimp only
      iintro ⟨⟨HS0, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ (fun h => h0 ((hcond0_0 t).mp h)) (fun h => h1 ((hcond0_1 t).mp h)) (blk0 m c t) (blk1 m c t) (blk2 m c t) (blk3 m c t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- Every weakly fair execution of the program terminates; every array of the pipeline ends at what the proof data
    say was written back, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.KernelIdealBody.Defs.lean ====
/-
  What one grid point of the convolution kernel does to its two carried buffers, as pure functions of what it loads.
  The grid is (degree i, row tile r). At tile 0 of a degree the support matrix X · W_i is stored whole into the
  scratch; at the very first point the output is first set to the bias row on every row; at every point the rows
  [1024 r, 1024 r + 1024) of the output are replaced by themselves plus the adjacency tile against the scratch, the
  other rows kept. So one point is: support := X · W_i or kept; output := rows r of the base updated, where the base is
  the bias rows at the first point and the previous output afterwards.
-/
import proofs.«167788_g32186484916413_cont_8to1_b_1688_10_alg».proof.Proof.Gen.KernelIdeal.Frame
import proofs.«167788_g32186484916413_cont_8to1_b_1688_10_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch: the row tile is 0. -/
abbrev cond0_0 (i : grid0.Coords) : Prop := k0_cond1 i = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The second branch: degree 0 and row tile 0. -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_1 : ∀ t : Fin cfg0.N, cond0_1 (grid0.coords t) ↔ t.val % 16 = 0 :=
  (by decide +kernel : ∀ t : Fin grid0.N, cond0_1 (grid0.coords t) ↔ t.val % 16 = 0)

/-! ## The staging memrefs at a point, and the scratch -/

abbrev ms0_0 (t : Fin cfg0.N) : Memref sig .tc .vmem S4096x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .f32 := win0_4.stage (cfg0.slots t 4)
abbrev hs0_4 (t : Fin cfg0.N) : (ms0_4 t).IsWhole := hstage0_4 ((cfg0.slots t 4).cast nbuf0_4)
/-- The scratch that holds the support matrix: a whole scoped buffer of the kernel's own. -/
abbrev scM0_0 : Memref sig .tc .vmem S4096x128 .f32 := Memref.whole cc0_scratch0

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## One point as pure functions -/

theorem hz2 : (![0, 0] : Fin 2 → ℕ) = fun _ => 0 := by funext a; fin_cases a <;> rfl
theorem hz3 : (![0, 0, 0] : Fin 3 → ℕ) = fun _ => 0 := by funext a; fin_cases a <;> rfl

/-- Rows [1024 r, 1024 r + 1024) of `base` replaced by the tile `blk`, the other rows kept. -/
def setRows (i : grid0.Coords) (base : Vec F S4096x128 .f32) (blk : Vec F S1024x128 .f32) : Vec F S4096x128 .f32 :=
  fun y =>
    if h : 1024 * (i 1).val ≤ (y (0 : Fin 2)).val ∧ (y (0 : Fin 2)).val < 1024 * (i 1).val + 1024 then
      blk (Rect.unitLocal (s := S4096x128) (off := ![1024 * (i 1).val, 0]) (size := S1024x128.size) y
        (Rect.unit_rows_mem y rfl rfl h))
    else base y

/-- The row tile of the point, as the rectangle the body loads and stores through. -/
abbrev rowsRect (i : grid0.Coords) : Rect S4096x128 := Rect.unit (k0_off2 i) S1024x128.size (k0_off2_inb i)

/-- The output after a point: the row tile of `base` plus the adjacency tile against the support, the rest of `base`. -/
def stepOut (i : grid0.Coords) (base : Vec F S4096x128 .f32) (adjBlk : Vec F S1x1024x4096 .f32) (sup : Vec F S4096x128 .f32) :
    Vec F S4096x128 .f32 :=
  setRows i base (k0_pay3 (View.ld base (rowsRect i)) adjBlk sup)

/-- The support matrix of the point's degree: the input against that degree's weight slice. -/
def supOf (i : grid0.Coords) (h : cond0_0 i) (x : Vec F S4096x128 .f32) (w : Vec F S4x128x128 .f32) : Vec F S4096x128 .f32 :=
  k0_pay1 (View.ld w (Rect.unit (k0_off1 i) S1x128x128.size (k0_off1_inb i h))) x

/-! ## Reading back what the stores leave -/

/-- After a store of the row tile made last, the buffer reads as the earlier contents with that tile replaced. -/
theorem read_rows_cons {κ : Kind} {sp : Space} (v : View sig κ sp S4096x128 .f32) (f : v.ty.Contents (Elt F)) (i : grid0.Coords)
    (w : (rowsRect i).shape.Idx → Elt F .f32) (L : List (View.Piece (Elt F) S4096x128 .f32)) :
    v.read (Elt F) (v.writes (Elt F) f ((⟨rowsRect i, w⟩ : View.Piece (Elt F) S4096x128 .f32) :: L))
      = setRows i (v.read (Elt F) (v.writes (Elt F) f L)) w := by
  funext y
  rw [View.read_writes_cons_rows v f (k0_off2_inb i) w L y (k0_off2_eq i) rfl rfl]
  rfl

/-- After a store of the whole buffer made last, the buffer reads as the stored value. -/
theorem read_whole_cons {κ : Kind} {sp : Space} (v : View sig κ sp S4096x128 .f32) (f : v.ty.Contents (Elt F))
    (w : Vec F S4096x128 .f32) (L : List (View.Piece (Elt F) S4096x128 .f32)) :
    v.read (Elt F) (v.writes (Elt F) f ((⟨Rect.unit ![0, 0] S4096x128.size inb_S4096x128_S4096x128_0_0, w⟩ : View.Piece (Elt F) S4096x128 .f32) :: L))
      = w :=
  funext fun y => View.read_writes_cons_unit_of_mem v f inb_S4096x128_S4096x128_0_0 w L y y hz2 (fun a => (Nat.zero_add _).symm)

end Cert.KernelIdeal.Body

end
-- ==== Proof.KernelIdealBody.RunA.lean ====
/-
  The body at the first point: the scratch is stored whole with the support matrix of degree 0, the output is
  stored whole with the bias row on every row, then row tile 0 is replaced by itself plus the adjacency tile
  against the support. What the two buffers held before is not used.
-/
import proofs.«167788_g32186484916413_cont_8to1_b_1688_10_alg».proof.Proof.KernelIdealBody.Defs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point the body stores the degree-0 support, sets every output row to the bias, and updates row tile 0. -/
theorem runA (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i (k0_pay2 x3) x1 (supOf i hc0 x0 x2)) ∗ owns (c : Thread nD τ) arg7 fullShare (supOf i hc0 x0 x2)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      refine (read_rows_cons arg6.view _ i _ _).trans ?_
      unfold stepOut supOf
      simp only [View.readAt_eq_ld, harg3.read_unread, harg2.read_unread, harg4.read_unread, harg5.read_unread,
        View.readCov_unit_zero (S := S4096x128) _ hz2,
        View.ld_unit_zero (S := S1x1024x4096) hz3, View.ld_unit_zero (S := S4096x128) hz2, View.ld_unit_zero (S := S1x128) hz2]
      have e : View.read (Elt F) arg6.view (arg6.view.writes (Elt F) arg6.view.junk
          [(⟨Rect.unit ![0, 0] S4096x128.size inb_S4096x128_S4096x128_0_0, k0_pay2 x3⟩ : View.Piece (Elt F) S4096x128 .f32)])
            = k0_pay2 x3 := read_whole_cons arg6.view _ _ []
      exact congrArg (fun b : Vec F S4096x128 .f32 => setRows i b (k0_pay3 (View.ld b (rowsRect i)) x1
        (k0_pay1 (View.ld x2 (Rect.unit (k0_off1 i) S1x128x128.size (k0_off1_inb i hc0))) x0))) e
    iexists _; isplitr; swap; · iexact HS0
    ipureintro
    sl_unfold_run_names
    refine (read_whole_cons arg7.view _ _ []).trans ?_
    unfold supOf
    simp only [View.readAt_eq_ld, harg2.read_unread, harg4.read_unread, View.ld_unit_zero (S := S4096x128) hz2]

end Cert.KernelIdeal.Body

end
-- ==== Proof.KernelIdealBody.RunB.lean ====
/-
  The body at a point that is neither a tile 0 nor the first point: the support matrix in the scratch is kept, and
  the point's row tile of the output is replaced by itself plus the adjacency tile against that support.
-/
import proofs.«167788_g32186484916413_cont_8to1_b_1688_10_alg».proof.Proof.KernelIdealBody.Defs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a point that is neither a tile 0 nor the first, the body keeps the support and updates the point's row tile. -/
theorem runB (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : ¬cond0_0 i) (hc1 : ¬cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i x4 x1 xs) ∗ owns (c : Thread nD τ) arg7 fullShare (xs)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (read_rows_cons arg6.view _ i _ []).trans ?_
      unfold stepOut
      simp only [View.writes_nil, View.readAt_eq_ld, harg6.read_unread, harg3.read_unread, harg7.read_unread,
        View.ld_unit_zero (S := S1x1024x4096) hz3, View.ld_unit_zero (S := S4096x128) hz2]
    iexists _; isplitr; swap; · iexact HS0
    ipureintro
    exact harg7.read_unread _

end Cert.KernelIdeal.Body

end
-- ==== Proof.KernelIdealBody.RunC.lean ====
/-
  The body at tile 0 of a degree other than the first point: the scratch is stored whole with the support matrix of
  the degree, then the point's row tile of the output is replaced by itself plus the adjacency tile against it.
-/
import proofs.«167788_g32186484916413_cont_8to1_b_1688_10_alg».proof.Proof.KernelIdealBody.Defs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile 0 the body stores the support of the point's degree and updates the point's row tile. -/
theorem runC (c : Dev nD) (i : grid0.Coords) (arg2 : Memref sig .tc .vmem S4096x128 .f32) (harg2 : arg2.IsWhole) (arg3 : Memref sig .tc .vmem S1x1024x4096 .f32) (harg3 : arg3.IsWhole) (arg4 : Memref sig .tc .vmem S4x128x128 .f32) (harg4 : arg4.IsWhole) (arg5 : Memref sig .tc .vmem S1x128 .f32) (harg5 : arg5.IsWhole) (arg6 : Memref sig .tc .vmem S4096x128 .f32) (harg6 : arg6.IsWhole) (arg7 : Memref sig .tc .vmem S4096x128 .f32) (harg7 : arg7.IsWhole) (hc0 : cond0_0 i) (hc1 : ¬cond0_1 i)
    (x0 : Vec F S4096x128 .f32) (x1 : Vec F S1x1024x4096 .f32) (x2 : Vec F S4x128x128 .f32) (x3 : Vec F S1x128 .f32) (x4 : Vec F S4096x128 .f32) (xs : Vec F S4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (stepOut i x4 x1 (supOf i hc0 x0 x2)) ∗ owns (c : Thread nD τ) arg7 fullShare (supOf i hc0 x0 x2)) -∗ K ⟨⟩))
          ⊢ wp frame (wpE (defs₀ (F := F)) Variants.none c none) E (cc0__cheby_kernel i arg2 harg2 arg3 harg3 arg4 harg4 arg5 harg5 arg6 harg6 arg7 harg7) K := by
    intro E K
    simp only [cc0__cheby_kernel_eq_skeleton]; unfold cc0__cheby_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      sl_unfold_run_names
      refine (read_rows_cons arg6.view _ i _ []).trans ?_
      unfold stepOut supOf
      simp only [View.writes_nil, View.readAt_eq_ld, harg6.read_unread, harg3.read_unread, harg2.read_unread, harg4.read_unread,
        View.readCov_unit_zero (S := S4096x128) _ hz2,
        View.ld_unit_zero (S := S1x1024x4096) hz3, View.ld_unit_zero (S := S4096x128) hz2]
    iexists _; isplitr; swap; · iexact HS0
    ipureintro
    sl_unfold_run_names
    refine (read_whole_cons arg7.view _ _ []).trans ?_
    unfold supOf
    simp only [View.readAt_eq_ld, harg2.read_unread, harg4.read_unread, View.ld_unit_zero (S := S4096x128) hz2]

end Cert.KernelIdeal.Body

end
-- ==== Proof.KernelIdealBody.Frame.lean ====
/-
  The kernel's run over its sixteen grid points: what the output's staging buffer and the scratch hold after each
  point, by recursion on the point (the first point starts from the bias rows and the degree-0 support; a tile 0
  recomputes the support; every point updates its row tile over what the point before left), the region's
  invariant carrying the scratch at those contents, and from them that every execution terminates with the argument
  arrays unchanged and the output array at what the last point wrote back.
-/
import proofs.«167788_g32186484916413_cont_8to1_b_1688_10_alg».proof.Proof.KernelIdealBody.RunA
import proofs.«167788_g32186484916413_cont_8to1_b_1688_10_alg».proof.Proof.KernelIdealBody.RunB
import proofs.«167788_g32186484916413_cont_8to1_b_1688_10_alg».proof.Proof.KernelIdealBody.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks at a point, at their literal types -/

abbrev blk0 (c : Dev nD) (t : Fin cfg0.N) : Vec F S4096x128 .f32 := iblk m c 0 t
abbrev blk1 (c : Dev nD) (t : Fin cfg0.N) : Vec F S1x1024x4096 .f32 := iblk m c 1 t
abbrev blk2 (c : Dev nD) (t : Fin cfg0.N) : Vec F S4x128x128 .f32 := iblk m c 2 t
abbrev blk3 (c : Dev nD) (t : Fin cfg0.N) : Vec F S1x128 .f32 := iblk m c 3 t

/-! ## What the two carried buffers hold after each point -/

/-- The output's staging buffer and the scratch after the body at position `n`: the first point from the bias rows
    and the degree-0 support; a later tile 0 with a fresh support; any other point with the support kept. -/
def outsAt (c : Dev nD) : (n : ℕ) → n < cfg0.N → Vec F S4096x128 .f32 × Vec F S4096x128 .f32
  | 0, hn =>
    (stepOut (grid0.coords ⟨0, hn⟩) (k0_pay2 (blk3 m c ⟨0, hn⟩)) (blk1 m c ⟨0, hn⟩)
        (supOf (grid0.coords ⟨0, hn⟩) ((hcond0_0 ⟨0, hn⟩).mpr (Nat.zero_mod _)) (blk0 m c ⟨0, hn⟩) (blk2 m c ⟨0, hn⟩)),
      supOf (grid0.coords ⟨0, hn⟩) ((hcond0_0 ⟨0, hn⟩).mpr (Nat.zero_mod _)) (blk0 m c ⟨0, hn⟩) (blk2 m c ⟨0, hn⟩))
  | n + 1, hn =>
    if h0 : (n + 1) % 4 = 0 then
      (stepOut (grid0.coords ⟨n + 1, hn⟩) (outsAt c n (Nat.lt_of_succ_lt hn)).1 (blk1 m c ⟨n + 1, hn⟩)
          (supOf (grid0.coords ⟨n + 1, hn⟩) ((hcond0_0 ⟨n + 1, hn⟩).mpr h0) (blk0 m c ⟨n + 1, hn⟩) (blk2 m c ⟨n + 1, hn⟩)),
        supOf (grid0.coords ⟨n + 1, hn⟩) ((hcond0_0 ⟨n + 1, hn⟩).mpr h0) (blk0 m c ⟨n + 1, hn⟩) (blk2 m c ⟨n + 1, hn⟩))
    else
      (stepOut (grid0.coords ⟨n + 1, hn⟩) (outsAt c n (Nat.lt_of_succ_lt hn)).1 (blk1 m c ⟨n + 1, hn⟩)
          (outsAt c n (Nat.lt_of_succ_lt hn)).2,
        (outsAt c n (Nat.lt_of_succ_lt hn)).2)

/-- At the first point. -/
theorem outsAt_first (c : Dev nD) (t : Fin cfg0.N) (hz : t.val = 0) (h0 : t.val % 4 = 0) :
    outsAt m c t.val t.isLt
      = (stepOut (grid0.coords t) (k0_pay2 (blk3 m c t)) (blk1 m c t)
            (supOf (grid0.coords t) ((hcond0_0 t).mpr h0) (blk0 m c t) (blk2 m c t)),
          supOf (grid0.coords t) ((hcond0_0 t).mpr h0) (blk0 m c t) (blk2 m c t)) := by
  obtain ⟨n, hn⟩ := t
  cases n with
  | zero => rfl
  | succ n => exact absurd hz (Nat.succ_ne_zero n)

/-- At a later tile 0: a fresh support, the row tile updated over what the point before left. -/
theorem outsAt_tile0 (c : Dev nD) (t : Fin cfg0.N) (hz : t.val ≠ 0) (h0 : t.val % 4 = 0) :
    outsAt m c t.val t.isLt
      = (stepOut (grid0.coords t) (outsAt m c (t.val - 1) (Nat.lt_of_le_of_lt (Nat.sub_le _ _) t.isLt)).1 (blk1 m c t)
            (supOf (grid0.coords t) ((hcond0_0 t).mpr h0) (blk0 m c t) (blk2 m c t)),
          supOf (grid0.coords t) ((hcond0_0 t).mpr h0) (blk0 m c t) (blk2 m c t)) := by
  obtain ⟨n, hn⟩ := t
  cases n with
  | zero => exact absurd rfl hz
  | succ n => exact (dif_pos h0).trans rfl

/-- At any other point: the support kept, the row tile updated over what the point before left. -/
theorem outsAt_other (c : Dev nD) (t : Fin cfg0.N) (h0 : ¬t.val % 4 = 0) :
    outsAt m c t.val t.isLt
      = (stepOut (grid0.coords t) (outsAt m c (t.val - 1) (Nat.lt_of_le_of_lt (Nat.sub_le _ _) t.isLt)).1 (blk1 m c t)
            (outsAt m c (t.val - 1) (Nat.lt_of_le_of_lt (Nat.sub_le _ _) t.isLt)).2,
          (outsAt m c (t.val - 1) (Nat.lt_of_le_of_lt (Nat.sub_le _ _) t.isLt)).2) := by
  obtain ⟨n, hn⟩ := t
  cases n with
  | zero => exact absurd (Nat.zero_mod _) h0
  | succ n => exact (dif_neg h0).trans rfl

/-! ## The region's invariant, carrying the scratch -/

/-- Before the first point the scratch holds anything; before any later point, what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2)) ∗ (∃ r, prngReg c r)) := by
  cases n with
  | zero => exact absurd rfl hz
  | succ n => rfl

/-! ## The proof data -/

/-- The arrays as the region finds them; after the body each input's buffer at its block and the output's at what
    the points so far accumulated; the invariant carrying the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At the first point the output's staging buffer is fresh: it holds anything. -/
theorem before0_4_first (c : Dev nD) (t : Fin cfg0.N) (hz : t.val = 0) (d) : (dats m 0 c).before 4 t d = d :=
  Dat.before_out_reset _ 4 rfl t (.inl hz) d

/-- At a later point it holds what the body left at the point before: the buffer is written back only after the
    last point, the window is live and uncut. -/
theorem before0_4_later (c : Dev nD) (t : Fin cfg0.N) (hz : t.val ≠ 0) (d) :
    (dats m 0 c).before 4 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 4 rfl t hz (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 2000000 in
/-- The body at any point: the inputs' buffers hold their blocks; the output's and the scratch hold what the point
    before left (anything at the first point); the point's case of the body applies and leaves both at this point's
    contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [after0_0, after0_1, after0_2, after0_3, after0_4]
  have hN : t.val < 16 := lt_of_lt_of_eq t.isLt (show cfg0.N = 16 from N_0)
  by_cases hz : t.val = 0
  · have h0 : t.val % 4 = 0 := by omega
    have h1 : t.val % 16 = 0 := by omega
    rw [outsAt_first m c t hz h0]; dsimp only
    rw [PhiS_castSucc m c t, PhiS_zero m c _ _ hz, PhiA0_eq]
    simp only [before0_4_first m c t hz]
    iintro ⟨⟨⟨%ds, HS0⟩, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ ((hcond0_0 t).mpr h0) ((hcond0_1 t).mpr h1) (blk0 m c t) (blk1 m c t) (blk2 m c t) (blk3 m c t) d4 ds Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · rw [PhiS_castSucc m c t, PhiS_pos m c _ _ hz]
    simp only [before0_4_later m c t hz]
    have h1 : ¬t.val % 16 = 0 := by omega
    by_cases h0 : t.val % 4 = 0
    · rw [outsAt_tile0 m c t hz h0]; dsimp only
      iintro ⟨⟨HS0, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ ((hcond0_0 t).mpr h0) (fun h => h1 ((hcond0_1 t).mp h)) (blk0 m c t) (blk1 m c t) (blk2 m c t) (blk3 m c t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4
    · rw [outsAt_other m c t h0]; dsimp only
      iintro ⟨⟨HS0, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ (fun h => h0 ((hcond0_0 t).mp h)) (fun h => h1 ((hcond0_1 t).mp h)) (blk0 m c t) (blk1 m c t) (blk2 m c t) (blk3 m c t) _ _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  have hne : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hne, PhiA0_eq]
  iintro ⟨HS0, Hg⟩
  isplitl [HS0]
  · iexists _; iexact HS0
  iexact Hg

/-! ## The run and the frame -/

set_option backward.isDefEq.respectTransparency.types false in
/-- Every weakly fair execution of the program terminates; every array of the pipeline ends at what the proof data
    say was written back, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every execution terminates and the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.KernelValue.Blocks.lean ====
/-
  The kernel's input blocks at a grid point, read as the argument arrays. Point t of the sixteen is degree t / 4 and
  row tile t % 4. The input and the weight stack are staged whole, so their blocks are the arrays; the adjacency
  block is the 1024 rows [1024 (t % 4), 1024 (t % 4) + 1024) of the degree's matrix; the bias block is the bias
  vector as a one-row matrix.
-/
import proofs.«167788_g32186484916413_cont_8to1_b_1688_10_alg».proof.Proof.KernelIdealBody.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Cheby.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The degree of point t. -/
def degOf (t : Fin cfg0.N) : Fin 4 := ⟨t.val / 4, by have := t.isLt; have hN : cfg0.N = 16 := N_0; omega⟩

/-- Row p' of point t's row tile, as a row of the whole matrix. -/
def rowOf (t : Fin cfg0.N) (p' : Fin 1024) : Fin 4096 :=
  ⟨1024 * (t.val % 4) + p'.val, by have := p'.isLt; omega⟩

/-- The grid is degree-major: the first coordinate of point t is t / 4, -/
theorem coords_0 (t : Fin cfg0.N) : (grid0.coords t 0).val = t.val / 4 :=
  (by decide +kernel : ∀ t : Fin grid0.N, (grid0.coords t 0).val = t.val / 4) t

/-- and the second is t % 4. -/
theorem coords_1 (t : Fin cfg0.N) : (grid0.coords t 1).val = t.val % 4 :=
  (by decide +kernel : ∀ t : Fin grid0.N, (grid0.coords t 1).val = t.val % 4) t

/-- The input's block index is (0, 0) at every point: one block, the whole array. -/
theorem idx0 : ∀ t : Fin cfg0.N, win0_0.index t 0 = 0 ∧ win0_0.index t 1 = 0 :=
  (by decide +kernel : ∀ t : Fin grid0.N, win0_0.index t 0 = 0 ∧ win0_0.index t 1 = 0)

/-- The adjacency's block index at point t is (degree, row tile, 0) = (t / 4, t % 4, 0). -/
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

/-- The weight stack's block index is (0, 0, 0) at every point. -/
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- The bias row's block index is (0, 0) at every point. -/
theorem idx3 : ∀ t : Fin cfg0.N, win0_3.index t 0 = 0 ∧ win0_3.index t 1 = 0 :=
  (by decide +kernel : ∀ t : Fin grid0.N, win0_3.index t 0 = 0 ∧ win0_3.index t 1 = 0)

/-- The input is staged whole: its block at every point is the argument array. -/
theorem blk0_eq (c : Dev nD) (t : Fin cfg0.N) : blk0 m c t = m ((c.tc : Thread nD τ).loc main_arg0) := by
  -- coordinate a of the block's entry j is (block index) * (block extent) + j a, and the block index is 0
  funext j
  unfold blk0 iblk
  rw [View.read_apply]
  show V m c main_arg0 _ = m ((c.tc : Thread nD τ).loc main_arg0) _
  rw [V_main_arg0]
  congr 1
  funext a
  apply Fin.ext
  match a with
  | ⟨0, _⟩ => show win0_0.index t 0 * 4096 + 1 * (j 0).val = (j 0).val; rw [(idx0 t).1]; omega
  | ⟨1, _⟩ => show win0_0.index t 1 * 128 + 1 * (j 1).val = (j 1).val; rw [(idx0 t).2]; omega

/-- The weight stack is staged whole: its block at every point is the argument array. -/
theorem blk2_eq (c : Dev nD) (t : Fin cfg0.N) : blk2 m c t = m ((c.tc : Thread nD τ).loc main_arg2) := by
  funext j
  unfold blk2 iblk
  rw [View.read_apply]
  show V m c main_arg2 _ = m ((c.tc : Thread nD τ).loc main_arg2) _
  rw [V_main_arg2]
  congr 1
  funext a
  apply Fin.ext
  match a with
  | ⟨0, _⟩ => show win0_2.index t 0 * 4 + 1 * (j 0).val = (j 0).val; rw [(idx2 t).1]; omega
  | ⟨1, _⟩ => show win0_2.index t 1 * 128 + 1 * (j 1).val = (j 1).val; rw [(idx2 t).2.1]; omega
  | ⟨2, _⟩ => show win0_2.index t 2 * 128 + 1 * (j 2).val = (j 2).val; rw [(idx2 t).2.2]; omega

/-- The adjacency block at point t: row p' of the tile is row 1024 (t % 4) + p' of the degree's matrix. -/
theorem blk1_apply (c : Dev nD) (t : Fin cfg0.N) (p' : Fin 1024) (k : Fin 4096) :
    blk1 m c t (ix3 0 p' k) = m ((c.tc : Thread nD τ).loc main_arg1) (ix3 (degOf t) (rowOf t p') k) := by
  unfold blk1 iblk
  rw [View.read_apply]
  show V m c main_arg1 _ = m ((c.tc : Thread nD τ).loc main_arg1) _
  rw [V_main_arg1]
  congr 1
  funext a
  apply Fin.ext
  match a with
  | ⟨0, _⟩ => show win0_1.index t 0 * 1 + 1 * 0 = t.val / 4; rw [(idx1 t).1]; omega
  | ⟨1, _⟩ => show win0_1.index t 1 * 1024 + 1 * p'.val = 1024 * (t.val % 4) + p'.val; rw [(idx1 t).2.1]; omega
  | ⟨2, _⟩ => show win0_1.index t 2 * 4096 + 1 * k.val = k.val; rw [(idx1 t).2.2]; omega

/-- The bias block: the bias vector as a one-row matrix (the program reshapes it before the kernel). -/
theorem blk3_apply (c : Dev nD) (t : Fin cfg0.N) (q : Fin 128) :
    blk3 m c t (ix2 0 q) = m ((c.tc : Thread nD τ).loc main_arg3) (ix1 q) := by
  -- the array the window reads is the reshape of the bias vector to one row
  have e : (V m c main_v0 : S1x128.Idx → EReal)
      = shapeCast S1x128 (m ((c.tc : Thread nD τ).loc main_arg3)) shapeCasts_S128_S1x128 := by
    dsimp only [Gen.V, Gen.hostOps0]; after_results; rfl
  unfold blk3 iblk
  rw [View.read_apply]
  show V m c main_v0 _ = m ((c.tc : Thread nD τ).loc main_arg3) _
  rw [e]
  -- the block is the whole row: its coordinate (0, q) is the array's (0, q), which the reshape reads at q
  refine Eq.trans (congrArg _ ?_)
    (shapeCast_a_1a_apply (m ((c.tc : Thread nD τ).loc main_arg3)) shapeCasts_S128_S1x128 0 q)
  funext a
  apply Fin.ext
  match a with
  | ⟨0, _⟩ => show win0_3.index t 0 * 1 + 1 * 0 = 0; rw [(idx3 t).1]
  | ⟨1, _⟩ => show win0_3.index t 1 * 128 + 1 * q.val = q.val; rw [(idx3 t).2]; omega

end Cert.Cheby.Blocks

end
-- ==== Proof.Payloads.lean ====
/-
  The kernel body's three stored values read at an index, at the ideal instance: the support matrix as a sum over
  the input's columns, the bias row repeated on every row, and a row tile of the output plus the adjacency tile
  against the support.
-/
import proofs.«167788_g32186484916413_cont_8to1_b_1688_10_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Cheby.Payloads

open Cert.KernelIdeal Cert.KernelIdeal.Gen
open Idealize.ShloMosaic Idealize.ShloMosaic.TcCoe Idealize.ShloMosaic.ValueIdx

/-! ### The input times weight-slice product: where its operands are read

A [m, c] × [c, n] product with no batch axis. At the output index (r, s) and the contraction index t the left
operand is read at (r, t) and the right operand at (t, s). The four facts below are the four coordinates. -/

/-- The left operand's row is the output's row: axis 0 of the left operand is its one free axis. -/
theorem lhsW_0 (i : S4096x128.Idx) (t : dot_S4096x128_S128x128_S4096x128_1_0_0_1_n_n.contr.Idx) :
    (dot_S4096x128_S128x128_S4096x128_1_0_0_1_n_n.lhsIdx i t 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- The left operand's column is the contraction index: axis 1 of the left operand is the one contracted axis. -/
theorem lhsW_1 (i : S4096x128.Idx) (t : dot_S4096x128_S128x128_S4096x128_1_0_0_1_n_n.contr.Idx) :
    (dot_S4096x128_S128x128_S4096x128_1_0_0_1_n_n.lhsIdx i t 1).val = (t ⟨0, by decide⟩).val :=
  dot_S4096x128_S128x128_S4096x128_1_0_0_1_n_n.lhsIdx_val_of_single rfl i t

/-- The right operand's row is the contraction index: axis 0 of the right operand is the one contracted axis. -/
theorem rhsW_0 (i : S4096x128.Idx) (t : dot_S4096x128_S128x128_S4096x128_1_0_0_1_n_n.contr.Idx) :
    (dot_S4096x128_S128x128_S4096x128_1_0_0_1_n_n.rhsIdx i t 0).val = (t ⟨0, by decide⟩).val :=
  dot_S4096x128_S128x128_S4096x128_1_0_0_1_n_n.rhsIdx_val_of_single rfl i t

/-- The right operand's column is the output's column: axis 1 of the right operand is its one free axis. -/
theorem rhsW_1 (i : S4096x128.Idx) (t : dot_S4096x128_S128x128_S4096x128_1_0_0_1_n_n.contr.Idx) :
    (dot_S4096x128_S128x128_S4096x128_1_0_0_1_n_n.rhsIdx i t 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The input times weight-slice product into a zero accumulator, read at (r, s): the sum over the contracted axis of the left operand's
    row r against the right operand's column s. The contraction's index set is one axis of extent 128; the sum is
    carried over to `Fin 128` along that identification. -/
theorem matmulW_apply (x : FVec Ideal S4096x128 .f32) (y : FVec Ideal S128x128 .f32) (r : Fin 4096) (s : Fin 128) :
    matmul dot_S4096x128_S128x128_S4096x128_1_0_0_1_n_n none x y (constant (F := Ideal) S4096x128 .f32 0x00000000#32) (ix2 r s)
      = ∑ t : Fin 128, x (ix2 r t) * y (ix2 t s) := by
  show FloatOps.matmul _ _ _ _ _ _ = _
  rw [Ideal.matmul_constant_zero_apply, ← Equiv.sum_comp (contrEquiv1 dot_S4096x128_S128x128_S4096x128_1_0_0_1_n_n 128 rfl rfl).symm]
  refine Finset.sum_congr rfl fun t _ => ?_
  have ht := contrEquiv1_symm_val dot_S4096x128_S128x128_S4096x128_1_0_0_1_n_n 128 rfl rfl t
  have el : dot_S4096x128_S128x128_S4096x128_1_0_0_1_n_n.lhsIdx (ix2 r s) ((contrEquiv1 dot_S4096x128_S128x128_S4096x128_1_0_0_1_n_n 128 rfl rfl).symm t) = ix2 r t :=
    funext fun a => Fin.ext (by
      match a with
      | ⟨0, _⟩ => exact lhsW_0 _ _
      | ⟨1, _⟩ => exact (lhsW_1 _ _).trans ht)
  have er : dot_S4096x128_S128x128_S4096x128_1_0_0_1_n_n.rhsIdx (ix2 r s) ((contrEquiv1 dot_S4096x128_S128x128_S4096x128_1_0_0_1_n_n 128 rfl rfl).symm t) = ix2 t s :=
    funext fun a => Fin.ext (by
      match a with
      | ⟨0, _⟩ => exact (rhsW_0 _ _).trans ht
      | ⟨1, _⟩ => exact rhsW_1 _ _)
  rw [el, er]

/-! ### The adjacency-tile times support product: where its operands are read

A [m, c] × [c, n] product with no batch axis. At the output index (r, s) and the contraction index t the left
operand is read at (r, t) and the right operand at (t, s). The four facts below are the four coordinates. -/

/-- The left operand's row is the output's row: axis 0 of the left operand is its one free axis. -/
theorem lhsA_0 (i : S1024x128.Idx) (t : dot_S1024x4096_S4096x128_S1024x128_1_0_0_1_n_n.contr.Idx) :
    (dot_S1024x4096_S4096x128_S1024x128_1_0_0_1_n_n.lhsIdx i t 0).val = (i 0).val := by
  unfold DotDims.lhsIdx
  rw [dif_neg (show ¬(0 : Fin S1024x4096.rank) ∈ dot_S1024x4096_S4096x128_S1024x128_1_0_0_1_n_n.lhsBatch by decide),
    dif_pos (show (0 : Fin S1024x4096.rank) ∈ dot_S1024x4096_S4096x128_S1024x128_1_0_0_1_n_n.lhsNonContracting by decide)]
  rfl

/-- The left operand's column is the contraction index: axis 1 of the left operand is the one contracted axis. -/
theorem lhsA_1 (i : S1024x128.Idx) (t : dot_S1024x4096_S4096x128_S1024x128_1_0_0_1_n_n.contr.Idx) :
    (dot_S1024x4096_S4096x128_S1024x128_1_0_0_1_n_n.lhsIdx i t 1).val = (t ⟨0, by decide⟩).val :=
  dot_S1024x4096_S4096x128_S1024x128_1_0_0_1_n_n.lhsIdx_val_of_single rfl i t

/-- The right operand's row is the contraction index: axis 0 of the right operand is the one contracted axis. -/
theorem rhsA_0 (i : S1024x128.Idx) (t : dot_S1024x4096_S4096x128_S1024x128_1_0_0_1_n_n.contr.Idx) :
    (dot_S1024x4096_S4096x128_S1024x128_1_0_0_1_n_n.rhsIdx i t 0).val = (t ⟨0, by decide⟩).val :=
  dot_S1024x4096_S4096x128_S1024x128_1_0_0_1_n_n.rhsIdx_val_of_single rfl i t

/-- The right operand's column is the output's column: axis 1 of the right operand is its one free axis. -/
theorem rhsA_1 (i : S1024x128.Idx) (t : dot_S1024x4096_S4096x128_S1024x128_1_0_0_1_n_n.contr.Idx) :
    (dot_S1024x4096_S4096x128_S1024x128_1_0_0_1_n_n.rhsIdx i t 1).val = (i 1).val := by
  unfold DotDims.rhsIdx
  rw [dif_neg (show ¬(1 : Fin S4096x128.rank) ∈ dot_S1024x4096_S4096x128_S1024x128_1_0_0_1_n_n.rhsBatch by decide),
    dif_pos (show (1 : Fin S4096x128.rank) ∈ dot_S1024x4096_S4096x128_S1024x128_1_0_0_1_n_n.rhsNonContracting by decide)]
  rfl

/-- The adjacency-tile times support product into a zero accumulator, read at (r, s): the sum over the contracted axis of the left operand's
    row r against the right operand's column s. The contraction's index set is one axis of extent 4096; the sum is
    carried over to `Fin 4096` along that identification. -/
theorem matmulA_apply (x : FVec Ideal S1024x4096 .f32) (y : FVec Ideal S4096x128 .f32) (r : Fin 1024) (s : Fin 128) :
    matmul dot_S1024x4096_S4096x128_S1024x128_1_0_0_1_n_n none x y (constant (F := Ideal) S1024x128 .f32 0x00000000#32) (ix2 r s)
      = ∑ t : Fin 4096, x (ix2 r t) * y (ix2 t s) := by
  show FloatOps.matmul _ _ _ _ _ _ = _
  rw [Ideal.matmul_constant_zero_apply, ← Equiv.sum_comp (contrEquiv1 dot_S1024x4096_S4096x128_S1024x128_1_0_0_1_n_n 4096 rfl rfl).symm]
  refine Finset.sum_congr rfl fun t _ => ?_
  have ht := contrEquiv1_symm_val dot_S1024x4096_S4096x128_S1024x128_1_0_0_1_n_n 4096 rfl rfl t
  have el : dot_S1024x4096_S4096x128_S1024x128_1_0_0_1_n_n.lhsIdx (ix2 r s) ((contrEquiv1 dot_S1024x4096_S4096x128_S1024x128_1_0_0_1_n_n 4096 rfl rfl).symm t) = ix2 r t :=
    funext fun a => Fin.ext (by
      match a with
      | ⟨0, _⟩ => exact lhsA_0 _ _
      | ⟨1, _⟩ => exact (lhsA_1 _ _).trans ht)
  have er : dot_S1024x4096_S4096x128_S1024x128_1_0_0_1_n_n.rhsIdx (ix2 r s) ((contrEquiv1 dot_S1024x4096_S4096x128_S1024x128_1_0_0_1_n_n 4096 rfl rfl).symm t) = ix2 t s :=
    funext fun a => Fin.ext (by
      match a with
      | ⟨0, _⟩ => exact (rhsA_0 _ _).trans ht
      | ⟨1, _⟩ => exact rhsA_1 _ _)
  rw [el, er]

/-! ## The three payloads -/

/-- The support matrix: entry (k, q) is row k of the input against column q of the loaded weight slice. -/
theorem pay1_apply (v20 : Vec Ideal S1x128x128 .f32) (v22 : Vec Ideal S4096x128 .f32) (k : Fin 4096) (q : Fin 128) :
    k0_pay1 (F := Ideal) v20 v22 (ix2 k q) = ∑ j : Fin 128, v22 (ix2 k j) * v20 (ix3 0 j q) := by
  unfold k0_pay1
  -- the outer cast keeps the shape; the product is the sum over the input's columns; the weight slice's leading
  -- unit axis is dropped, so its (j, q) entry is the loaded slice's (0, j, q) entry
  rw [shapeCast_self, matmulW_apply]
  refine Finset.sum_congr rfl fun j _ => ?_
  rw [shapeCast_1ab_ab_apply]

/-- The bias row repeated on every row. -/
theorem pay2_apply (v19 : Vec Ideal S1x128 .f32) (p : Fin 4096) (q : Fin 128) :
    k0_pay2 (F := Ideal) v19 (ix2 p q) = v19 (ix2 0 q) := by
  unfold k0_pay2
  -- both casts keep the shape; a one-row array repeated over the rows reads its one row at the same column
  rw [broadcastTo_1b_ab_apply, shapeCast_self, shapeCast_self]

/-- A row tile of the output plus the adjacency tile against the support matrix. -/
theorem pay3_apply (v10 : Vec Ideal S1024x128 .f32) (v12 : Vec Ideal S1x1024x4096 .f32) (v14 : Vec Ideal S4096x128 .f32)
    (p : Fin 1024) (q : Fin 128) :
    k0_pay3 (F := Ideal) v10 v12 v14 (ix2 p q) = v10 (ix2 p q) + ∑ k : Fin 4096, v12 (ix3 0 p k) * v14 (ix2 k q) := by
  unfold k0_pay3
  -- a sum of two arrays reads as the sum of their entries; the first is the loaded tile itself (its cast keeps the
  -- shape), the second the product of the adjacency tile, its leading unit axis dropped, with the support matrix
  rw [addf_apply, shapeCast_self, matmulA_apply]
  refine congrArg (v10 (ix2 p q) + ·) (Finset.sum_congr rfl fun k _ => ?_)
  rw [shapeCast_1ab_ab_apply]

end Cert.Cheby.Payloads

end
-- ==== Proof.KernelValue.Steps.lean ====
/-
  One grid point's two pure functions read at an index, on the extended reals: the support matrix is the input
  against the degree's weight slice; the updated output is, on the point's row tile, the base plus the adjacency tile
  against the support, and the base on every other row.
-/
import proofs.«167788_g32186484916413_cont_8to1_b_1688_10_alg».proof.Proof.KernelIdealBody.Defs
import proofs.«167788_g32186484916413_cont_8to1_b_1688_10_alg».proof.Proof.Payloads
import Idealize.ShloMosaic.Lib.ValueIdx

set_option maxRecDepth 16384

noncomputable section

namespace Cert.Cheby.Steps

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

open Cert.Cheby.Payloads

/-- The support matrix at (k, q): row k of the input against column q of the weight slice of the point's degree. -/
theorem supOf_apply (i : grid0.Coords) (h : cond0_0 i) (x : Vec Ideal S4096x128 .f32) (w : Vec Ideal S4x128x128 .f32)
    (d : Fin 4) (hd : d.val = (i 0).val) (k : Fin 4096) (q : Fin 128) :
    supOf (F := Ideal) i h x w (ix2 k q) = ∑ j : Fin 128, x (ix2 k j) * w (ix3 d j q) := by
  unfold supOf
  rw [pay1_apply]
  refine Finset.sum_congr rfl fun j _ => ?_
  congr 1
  show w ((Rect.unit (s := S4x128x128) (k0_off1 i) S1x128x128.size (k0_off1_inb i h)).idx (ix3 0 j q)) = w (ix3 d j q)
  congr 1
  funext a
  apply Fin.ext
  have e := congrFun (k0_off1_eq i) a
  match a with
  | ⟨0, _⟩ => show (k0_off1 i) 0 + 1 * 0 = d.val; rw [show (k0_off1 i) 0 = (i 0).val from e, hd]; omega
  | ⟨1, _⟩ => show (k0_off1 i) 1 + 1 * j.val = j.val; rw [show (k0_off1 i) 1 = 0 from e]; omega
  | ⟨2, _⟩ => show (k0_off1 i) 2 + 1 * q.val = q.val; rw [show (k0_off1 i) 2 = 0 from e]; omega

/-- On the point's row tile: the base plus the adjacency tile's row against the support's column. -/
theorem stepOut_apply_in (i : grid0.Coords) (base : Vec Ideal S4096x128 .f32) (adjBlk : Vec Ideal S1x1024x4096 .f32)
    (sup : Vec Ideal S4096x128 .f32) (p : Fin 4096) (q : Fin 128) (p' : Fin 1024)
    (hp : p.val = 1024 * (i 1).val + p'.val) :
    stepOut (F := Ideal) i base adjBlk sup (ix2 p q)
      = base (ix2 p q) + ∑ k : Fin 4096, adjBlk (ix3 0 p' k) * sup (ix2 k q) := by
  unfold stepOut setRows
  have hin : 1024 * (i 1).val ≤ ((ix2 p q : S4096x128.Idx) (0 : Fin 2)).val
      ∧ ((ix2 p q : S4096x128.Idx) (0 : Fin 2)).val < 1024 * (i 1).val + 1024 := by
    show 1024 * (i 1).val ≤ p.val ∧ p.val < 1024 * (i 1).val + 1024
    have := p'.isLt; omega
  rw [dif_pos hin]
  have hl : Rect.unitLocal (s := S4096x128) (off := ![1024 * (i 1).val, 0]) (size := S1024x128.size) (ix2 p q)
      (Rect.unit_rows_mem (ix2 p q) rfl rfl hin) = (ix2 p' q : S1024x128.Idx) := by
    funext a
    apply Fin.ext
    match a with
    | ⟨0, _⟩ => show p.val - 1024 * (i 1).val = p'.val; omega
    | ⟨1, _⟩ => show q.val - 0 = q.val; omega
  rw [hl, pay3_apply]
  congr 1
  show base ((rowsRect i).idx (ix2 p' q)) = base (ix2 p q)
  congr 1
  funext a
  apply Fin.ext
  have e := congrFun (k0_off2_eq i) a
  match a with
  | ⟨0, _⟩ => show (k0_off2 i) 0 + 1 * p'.val = p.val; rw [show (k0_off2 i) 0 = 1024 * (i 1).val from e, hp]; omega
  | ⟨1, _⟩ => show (k0_off2 i) 1 + 1 * q.val = q.val; rw [show (k0_off2 i) 1 = 0 from e]; omega

/-- Off the point's row tile the base is kept. -/
theorem stepOut_apply_out (i : grid0.Coords) (base : Vec Ideal S4096x128 .f32) (adjBlk : Vec Ideal S1x1024x4096 .f32)
    (sup : Vec Ideal S4096x128 .f32) (p : Fin 4096) (q : Fin 128)
    (hp : p.val < 1024 * (i 1).val ∨ 1024 * (i 1).val + 1024 ≤ p.val) :
    stepOut (F := Ideal) i base adjBlk sup (ix2 p q) = base (ix2 p q) := by
  unfold stepOut setRows
  have hout : ¬(1024 * (i 1).val ≤ ((ix2 p q : S4096x128.Idx) (0 : Fin 2)).val
      ∧ ((ix2 p q : S4096x128.Idx) (0 : Fin 2)).val < 1024 * (i 1).val + 1024) := by
    show ¬(1024 * (i 1).val ≤ p.val ∧ p.val < 1024 * (i 1).val + 1024)
    omega
  rw [dif_neg hout]

end Cert.Cheby.Steps

end
-- ==== Proof.Spec.lean ====
/-
  The Chebyshev graph convolution as one function of the argument arrays, index by index, on the extended reals:
  for each degree i the support matrix S_i = X · W_i, the product A_i · S_i, and the bias row plus the four products.
  The kernel adds the products to the bias one degree after another; the reference adds the four products first and
  the bias last. Addition of extended reals is commutative and associative, so the two groupings agree, with no
  finiteness of the entries needed.
-/
import Idealize.ShloMosaic.PureOps.Ideal
import Idealize.ShloMosaic.Lib.ValueIdx

noncomputable section

namespace Cert.Cheby

open Idealize.ShloMosaic Idealize.ShloMosaic.ValueIdx

variable (x : (⟨2, ![4096, 128]⟩ : Shape).Idx → EReal) (adj : (⟨3, ![4, 4096, 4096]⟩ : Shape).Idx → EReal)
  (w : (⟨3, ![4, 128, 128]⟩ : Shape).Idx → EReal) (b : (⟨1, ![128]⟩ : Shape).Idx → EReal)

/-- Entry (k, q) of the degree-i support matrix: row k of the input against column q of the i-th weight. -/
def supp (i : Fin 4) (k : Fin 4096) (q : Fin 128) : EReal :=
  ∑ j : Fin 128, x (ix2 k j) * w (ix3 i j q)

/-- Entry (p, q) of the degree-i product: row p of the i-th adjacency against column q of the support matrix. -/
def term (i : Fin 4) (p : Fin 4096) (q : Fin 128) : EReal :=
  ∑ k : Fin 4096, adj (ix3 i p k) * supp x w i k q

/-- The degree-n product when n is a degree, zero beyond the last degree. -/
def termAt (n : ℕ) (p : Fin 4096) (q : Fin 128) : EReal :=
  if h : n < 4 then term x adj w ⟨n, h⟩ p q else 0

/-- The bias entry plus the products of the first n degrees, added in order of degree. -/
def partialSum : ℕ → Fin 4096 → Fin 128 → EReal
  | 0, _, q => b (ix1 q)
  | n + 1, p, q => partialSum n p q + termAt x adj w n p q

theorem partialSum_zero (p : Fin 4096) (q : Fin 128) : partialSum x adj w b 0 p q = b (ix1 q) := rfl

theorem partialSum_succ (n : ℕ) (p : Fin 4096) (q : Fin 128) :
    partialSum x adj w b (n + 1) p q = partialSum x adj w b n p q + termAt x adj w n p q := rfl

theorem termAt_of_lt (n : ℕ) (h : n < 4) (p : Fin 4096) (q : Fin 128) :
    termAt x adj w n p q = term x adj w ⟨n, h⟩ p q := dif_pos h

/-- All four degrees added: the bias, then the products in order of degree. -/
theorem partialSum_four (p : Fin 4096) (q : Fin 128) :
    partialSum x adj w b 4 p q
      = b (ix1 q) + term x adj w 0 p q + term x adj w 1 p q + term x adj w 2 p q + term x adj w 3 p q := by
  show partialSum x adj w b (((0 + 1) + 1 + 1) + 1) p q = _
  rw [partialSum_succ, partialSum_succ, partialSum_succ, partialSum_succ, partialSum_zero,
    termAt_of_lt x adj w (0 + 1 + 1 + 1) (by decide), termAt_of_lt x adj w (0 + 1 + 1) (by decide),
    termAt_of_lt x adj w (0 + 1) (by decide), termAt_of_lt x adj w 0 (by decide)]
  rfl

/-- The convolution: the bias plus all four products. -/
def conv : (⟨2, ![4096, 128]⟩ : Shape).Idx → EReal := fun y => partialSum x adj w b 4 (y 0) (y 1)

theorem conv_apply (p : Fin 4096) (q : Fin 128) : conv x adj w b (ix2 p q) = partialSum x adj w b 4 p q := rfl

/-- The four products summed first and the bias added last is the same extended real. -/
theorem products_then_bias (p : Fin 4096) (q : Fin 128) :
    term x adj w 0 p q + term x adj w 1 p q + term x adj w 2 p q + term x adj w 3 p q + b (ix1 q)
      = partialSum x adj w b 4 p q := by
  rw [partialSum_four]
  ac_rfl

end Cert.Cheby

end
-- ==== Proof.KernelValue.Invariant.lean ====
/-
  What the kernel's two carried buffers hold after each of the sixteen grid points, as the convolution's partial
  sums. After point n (degree n / 4, row tile n % 4) the scratch holds the support matrix of degree n / 4, and row p
  of the output holds the bias plus the products of the first n / 4 degrees, plus the product of degree n / 4 as well
  when p's row tile has already been visited in this degree's pass (p / 1024 ≤ n % 4). By induction on the point.
-/
import proofs.«167788_g32186484916413_cont_8to1_b_1688_10_alg».proof.Proof.KernelValue.Blocks
import proofs.«167788_g32186484916413_cont_8to1_b_1688_10_alg».proof.Proof.KernelValue.Steps
import proofs.«167788_g32186484916413_cont_8to1_b_1688_10_alg».proof.Proof.Spec

set_option maxRecDepth 16384

noncomputable section

namespace Cert.Cheby.Invariant

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

open Cert.Cheby Cert.Cheby.Blocks Cert.Cheby.Steps Cert.Cheby.Payloads

variable (m : (ℓ : Loc nD τ sig) → Buf (Elt Ideal) ℓ)

/-- The four argument arrays of core `c`, at their literal types. -/
abbrev argX (c : Dev nD) : Vec Ideal S4096x128 .f32 := m ((c.tc : Thread nD τ).loc main_arg0)
abbrev argA (c : Dev nD) : Vec Ideal S4x4096x4096 .f32 := m ((c.tc : Thread nD τ).loc main_arg1)
abbrev argW (c : Dev nD) : Vec Ideal S4x128x128 .f32 := m ((c.tc : Thread nD τ).loc main_arg2)
abbrev argB (c : Dev nD) : Vec Ideal S128 .f32 := m ((c.tc : Thread nD τ).loc main_arg3)

/-- How many degrees row p has received after point n. -/
def cnt (n : ℕ) (p : Fin 4096) : ℕ := n / 4 + (if p.val / 1024 ≤ n % 4 then 1 else 0)

/-- A freshly computed support at point t is the support matrix of t's degree. -/
theorem fresh_support (c : Dev nD) (t : Fin cfg0.N) (h : cond0_0 (grid0.coords t)) (k : Fin 4096) (q : Fin 128) :
    supOf (F := Ideal) (grid0.coords t) h (blk0 m c t) (blk2 m c t) (ix2 k q)
      = supp (argX m c) (argW m c) (degOf t) k q := by
  rw [supOf_apply (grid0.coords t) h (blk0 m c t) (blk2 m c t) (degOf t) (coords_0 t).symm k q, blk0_eq, blk2_eq]
  rfl

/-- One point: on its row tile the partial sum advances by the product of the point's degree; the other rows are kept. -/
theorem advance (c : Dev nD) (t : Fin cfg0.N) (base sup : Vec Ideal S4096x128 .f32) (a : Fin 4096 → ℕ)
    (hsup : ∀ (k : Fin 4096) (q : Fin 128), sup (ix2 k q) = supp (argX m c) (argW m c) (degOf t) k q)
    (hbase : ∀ (p : Fin 4096) (q : Fin 128), base (ix2 p q) = partialSum (argX m c) (argA m c) (argW m c) (argB m c) (a p) p q)
    (ha : ∀ p : Fin 4096, p.val / 1024 = t.val % 4 → a p = t.val / 4) (p : Fin 4096) (q : Fin 128) :
    stepOut (F := Ideal) (grid0.coords t) base (blk1 m c t) sup (ix2 p q)
      = partialSum (argX m c) (argA m c) (argW m c) (argB m c) (if p.val / 1024 = t.val % 4 then t.val / 4 + 1 else a p) p q := by
  have hN : t.val < 16 := lt_of_lt_of_eq t.isLt (show cfg0.N = 16 from N_0)
  have h1 := coords_1 t
  have hp := p.isLt
  by_cases hin : p.val / 1024 = t.val % 4
  · rw [if_pos hin]
    have hlt : p.val - 1024 * (t.val % 4) < 1024 := by omega
    rw [stepOut_apply_in (grid0.coords t) base (blk1 m c t) sup p q ⟨p.val - 1024 * (t.val % 4), hlt⟩
      (by rw [h1]; show p.val = 1024 * (t.val % 4) + (p.val - 1024 * (t.val % 4)); omega)]
    rw [hbase, ha p hin, partialSum_succ, termAt_of_lt _ _ _ (t.val / 4) (by omega)]
    congr 1
    unfold term
    refine Finset.sum_congr rfl fun k _ => ?_
    rw [blk1_apply, hsup]
    have hr : rowOf t ⟨p.val - 1024 * (t.val % 4), hlt⟩ = p := Fin.ext (by show 1024 * (t.val % 4) + (p.val - 1024 * (t.val % 4)) = p.val; omega)
    rw [hr]
    rfl
  · rw [if_neg hin]
    rw [stepOut_apply_out (grid0.coords t) base (blk1 m c t) sup p q (by rw [h1]; omega)]
    exact hbase p q

/-- The invariant after every point. -/
theorem inv (c : Dev nD) : ∀ (n : ℕ) (h : n < cfg0.N),
    (∀ (k : Fin 4096) (q : Fin 128), (outsAt m c n h).2 (ix2 k q) = supp (argX m c) (argW m c) (degOf ⟨n, h⟩) k q)
    ∧ (∀ (p : Fin 4096) (q : Fin 128),
        (outsAt m c n h).1 (ix2 p q) = partialSum (argX m c) (argA m c) (argW m c) (argB m c) (cnt n p) p q)
  | 0, h => by
    have hc : cond0_0 (grid0.coords ⟨0, h⟩) := (hcond0_0 ⟨0, h⟩).mpr (Nat.zero_mod _)
    have e : outsAt m c 0 h
        = (stepOut (grid0.coords ⟨0, h⟩) (k0_pay2 (blk3 m c ⟨0, h⟩)) (blk1 m c ⟨0, h⟩)
              (supOf (grid0.coords ⟨0, h⟩) hc (blk0 m c ⟨0, h⟩) (blk2 m c ⟨0, h⟩)),
            supOf (grid0.coords ⟨0, h⟩) hc (blk0 m c ⟨0, h⟩) (blk2 m c ⟨0, h⟩)) := rfl
    rw [e]
    refine ⟨fun k q => fresh_support m c ⟨0, h⟩ hc k q, fun p q => ?_⟩
    refine (advance m c ⟨0, h⟩ (k0_pay2 (blk3 m c ⟨0, h⟩))
      (supOf (grid0.coords ⟨0, h⟩) hc (blk0 m c ⟨0, h⟩) (blk2 m c ⟨0, h⟩)) (fun _ => 0)
      (fun k q => fresh_support m c ⟨0, h⟩ hc k q)
      (fun p q => by rw [pay2_apply, blk3_apply]; rfl) (fun _ _ => (Nat.zero_div 4).symm) p q).trans ?_
    refine congrArg (fun a => partialSum (argX m c) (argA m c) (argW m c) (argB m c) a p q) ?_
    have hp := p.isLt
    show (if p.val / 1024 = 0 % 4 then 0 / 4 + 1 else 0) = 0 / 4 + (if p.val / 1024 ≤ 0 % 4 then 1 else 0)
    split_ifs <;> omega
  | n + 1, h => by
    have hN : n + 1 < 16 := lt_of_lt_of_eq h (show cfg0.N = 16 from N_0)
    have hn : n < cfg0.N := Nat.lt_of_succ_lt h
    obtain ⟨ihs, iho⟩ := inv c n hn
    have hcount : ∀ p : Fin 4096, p.val / 1024 = (⟨n + 1, h⟩ : Fin cfg0.N).val % 4 → cnt n p = (⟨n + 1, h⟩ : Fin cfg0.N).val / 4 := by
      intro p hp
      have hp' : p.val / 1024 = (n + 1) % 4 := hp
      have := p.isLt
      show n / 4 + (if p.val / 1024 ≤ n % 4 then 1 else 0) = (n + 1) / 4
      split_ifs <;> omega
    have hfinish : ∀ p : Fin 4096,
        (if p.val / 1024 = (⟨n + 1, h⟩ : Fin cfg0.N).val % 4 then (⟨n + 1, h⟩ : Fin cfg0.N).val / 4 + 1 else cnt n p) = cnt (n + 1) p := by
      intro p
      have := p.isLt
      show (if p.val / 1024 = (n + 1) % 4 then (n + 1) / 4 + 1 else n / 4 + (if p.val / 1024 ≤ n % 4 then 1 else 0))
        = (n + 1) / 4 + (if p.val / 1024 ≤ (n + 1) % 4 then 1 else 0)
      split_ifs <;> omega
    by_cases h0 : (n + 1) % 4 = 0
    · have hc : cond0_0 (grid0.coords ⟨n + 1, h⟩) := (hcond0_0 ⟨n + 1, h⟩).mpr h0
      have e : outsAt m c (n + 1) h
          = (stepOut (grid0.coords ⟨n + 1, h⟩) (outsAt m c n hn).1 (blk1 m c ⟨n + 1, h⟩)
                (supOf (grid0.coords ⟨n + 1, h⟩) hc (blk0 m c ⟨n + 1, h⟩) (blk2 m c ⟨n + 1, h⟩)),
              supOf (grid0.coords ⟨n + 1, h⟩) hc (blk0 m c ⟨n + 1, h⟩) (blk2 m c ⟨n + 1, h⟩)) :=
        outsAt_tile0 m c ⟨n + 1, h⟩ (Nat.succ_ne_zero n) h0
      rw [e]
      refine ⟨fun k q => fresh_support m c ⟨n + 1, h⟩ hc k q, fun p q => ?_⟩
      refine (advance m c ⟨n + 1, h⟩ (outsAt m c n hn).1
        (supOf (grid0.coords ⟨n + 1, h⟩) hc (blk0 m c ⟨n + 1, h⟩) (blk2 m c ⟨n + 1, h⟩)) (cnt n)
        (fun k q => fresh_support m c ⟨n + 1, h⟩ hc k q) iho hcount p q).trans ?_
      exact congrArg (fun a => partialSum (argX m c) (argA m c) (argW m c) (argB m c) a p q) (hfinish p)
    · have hd : degOf ⟨n + 1, h⟩ = degOf ⟨n, hn⟩ := Fin.ext (by show (n + 1) / 4 = n / 4; omega)
      have e : outsAt m c (n + 1) h
          = (stepOut (grid0.coords ⟨n + 1, h⟩) (outsAt m c n hn).1 (blk1 m c ⟨n + 1, h⟩) (outsAt m c n hn).2,
              (outsAt m c n hn).2) :=
        outsAt_other m c ⟨n + 1, h⟩ h0
      rw [e]
      refine ⟨fun k q => by rw [hd]; exact ihs k q, fun p q => ?_⟩
      refine (advance m c ⟨n + 1, h⟩ (outsAt m c n hn).1 (outsAt m c n hn).2 (cnt n)
        (fun k q => by rw [hd]; exact ihs k q) iho hcount p q).trans ?_
      exact congrArg (fun a => partialSum (argX m c) (argA m c) (argW m c) (argB m c) a p q) (hfinish p)

/-- After the last point every row has received all four degrees: the output's staging buffer holds the convolution. -/
theorem last_is_conv (c : Dev nD) (h : 15 < cfg0.N) :
    (outsAt m c 15 h).1 = conv (argX m c) (argA m c) (argW m c) (argB m c) := by
  funext y
  obtain ⟨p, q, rfl⟩ : ∃ (p : Fin 4096) (q : Fin 128), y = ix2 p q := ⟨y 0, y 1, eq_ix2 y⟩
  rw [(inv m c 15 h).2 p q, conv_apply]
  congr 1
  unfold cnt
  have hp := p.isLt
  show 15 / 4 + (if p.val / 1024 ≤ 15 % 4 then 1 else 0) = 4
  split_ifs <;> omega

end Cert.Cheby.Invariant

end
-- ==== Proof.KernelValue.Final.lean ====
/-
  The idealized kernel's result array. The output window's one block is the whole [4096, 128] array and it is
  written back once, after the last of the sixteen points, when every row has received the bias and all four
  degree products: so the array ends holding the convolution of the four argument arrays, and these end unchanged.
-/
import proofs.«167788_g32186484916413_cont_8to1_b_1688_10_alg».proof.Proof.KernelValue.Invariant
import Idealize.ShloMosaic.Lib.Pipeline.Value

set_option maxRecDepth 16384

noncomputable section

namespace Cert.Cheby.Final

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

open Cert.Cheby Cert.Cheby.Invariant

variable (m : (ℓ : Loc nD τ sig) → Buf (Elt Ideal) ℓ) (ρ : Dev nD → PrngReg)

/-- The convolution of core `c`'s argument arrays, as contents of the result array. -/
abbrev result (c : Dev nD) : Buf (Elt Ideal) ((c.tc : Thread nD τ).loc main_v1) :=
  conv (argX m c) (argA m c) (argW m c) (argB m c)

theorem lastPoint_lt : 15 < cfg0.N := by rw [show cfg0.N = 16 from N_0]; decide

/-- The only write-back is after point 15, and what it writes is the convolution: the window's block at zero block
    index is the whole array. -/
theorem flushed_is_conv (c : Dev nD) (t : Fin cfg0.N) (hf : (cfg0.win 4).flush t = true) :
    (dats m 0 c).flushed 4 t = ((cfg0.win 4).blk t).view.read (Elt Ideal) (result m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4, show outsAt m c t0_15.val t0_15.isLt = outsAt m c 15 lastPoint_lt from rfl, last_is_conv m c lastPoint_lt]
  have hzero : (fun a => win0_4.index t0_15 a * main_v1.ty.shape.size a) = fun _ => 0 :=
    funext fun a => by fin_cases a <;> decide
  exact (Memref.read_access_unit_zero (Elt Ideal) main_v1 hzero (fun a => by rw [congrFun hzero a]; simp) (result m c)).symm

/-- Every index of the array lies in the block written back after point 15. -/
theorem lastBlock_covers (i : S4096x128.Idx) : i ∈ ((cfg0.win 4).blk t0_15).view.set := by
  show i ∈ ((View.whole main_v1).slice (win0_4.rect t0_15)).set
  rw [View.set_slice_whole, Rect.mem_set_unit]
  have e0 : win0_4.index t0_15 0 * win0_4.size 0 = 0 := by decide +kernel
  have e1 : win0_4.index t0_15 1 * win0_4.size 1 = 0 := by decide +kernel
  have s0 : win0_4.xsize (grid0.coords t0_15) 0 = 4096 := by decide +kernel
  have s1 : win0_4.xsize (grid0.coords t0_15) 1 = 128 := by decide +kernel
  have h0 : (i 0 : Nat) < 4096 := (i 0).isLt
  have h1 : (i 1 : Nat) < 128 := (i 1).isLt
  intro a
  match a with
  | ⟨0, _⟩ =>
    show win0_4.index t0_15 0 * win0_4.size 0 ≤ (i 0 : Nat)
      ∧ (i 0 : Nat) < win0_4.index t0_15 0 * win0_4.size 0 + win0_4.xsize (grid0.coords t0_15) 0
    rw [e0, s0]; omega
  | ⟨1, _⟩ =>
    show win0_4.index t0_15 1 * win0_4.size 1 ≤ (i 1 : Nat)
      ∧ (i 1 : Nat) < win0_4.index t0_15 1 * win0_4.size 1 + win0_4.xsize (grid0.coords t0_15) 1
    rw [e1, s1]; omega

/-- So the result array ends holding the convolution. -/
theorem final_is_conv (c : Dev nD) : (dats m 0 c).arrAt 4 cfg0.N = result m c :=
  (dats m 0 c).arrAt_eq_of_cover 4 (result m c) (flushed_is_conv m c) fun i =>
    ⟨t0_15, (flush0_4 t0_15).mpr rfl, lastBlock_covers i⟩

/-- The run, read: every execution terminates with the result array at the convolution and the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final_is_conv m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main (F := Ideal) m ρ)

end Cert.Cheby.Final

end
-- ==== Proof.RefSide.lean ====
/-
  The reference at the ideal instance: for each degree the input times the weight slice, the adjacency slice times
  that support, the four products added, then the bias row broadcast over the rows and added last — read index by
  index as the convolution's one function of the argument arrays.
-/
import proofs.«167788_g32186484916413_cont_8to1_b_1688_10_alg».proof.Proof.Gen.ReferenceIdeal.Run
import proofs.«167788_g32186484916413_cont_8to1_b_1688_10_alg».proof.Proof.Gen.ReferenceIdeal.Read
import proofs.«167788_g32186484916413_cont_8to1_b_1688_10_alg».proof.Proof.Spec

noncomputable section

namespace Cert.Cheby.RefSide

open Cert.ReferenceIdeal Cert.ReferenceIdeal.Gen Cert.ReferenceIdeal.Read
open Idealize.ShloMosaic Idealize.ShloMosaic.TcCoe Idealize.ShloMosaic.ValueIdx

/-! ## The support matrices: the input against the d-th weight slice

Each support stage is a sum over the contracted axis j of the input at (k, j) times the reshaped weight slice at
(j, q). The reshape reads the slice at the row-major position j * 128 + q, that is at (0, j, q), and the slice reads
the weight at (d + 0, j, q). -/

theorem supp0 (x0 : (⟨S4096x128, .f32⟩ : BufTy).Contents (Elt Ideal))
    (x2 : (⟨S4x128x128, .f32⟩ : BufTy).Contents (Elt Ideal)) (k : Fin 4096) (q : Fin 128) :
    val_main_v2 (F := Ideal) x0 x2 (ix2 k q) = Cert.Cheby.supp x0 x2 0 k q := by
  rw [val_main_v2_apply]
  unfold Cert.Cheby.supp
  refine Finset.sum_congr rfl fun j _ => ?_
  rw [val_main_v1_apply, val_main_v0_apply]
  have el : lidx_main_v2 (ix2 k q) j = ix2 k j := funext fun a => Fin.ext (by
    match a with
    | ⟨0, _⟩ => rfl
    | ⟨1, _⟩ => rfl)
  have er : idx_main_v0 (idx_main_v1 (ridx_main_v2 (ix2 k q) j)) = ix3 (0 : Fin 4) j q := funext fun a => Fin.ext (by
    match a with
    | ⟨0, _⟩ => rfl
    | ⟨1, _⟩ => show (j.val * 128 + q.val) / 128 % 128 = j.val; omega
    | ⟨2, _⟩ => show (j.val * 128 + q.val) % 128 = q.val; omega)
  rw [el, er]

theorem supp1 (x0 : (⟨S4096x128, .f32⟩ : BufTy).Contents (Elt Ideal))
    (x2 : (⟨S4x128x128, .f32⟩ : BufTy).Contents (Elt Ideal)) (k : Fin 4096) (q : Fin 128) :
    val_main_v8 (F := Ideal) x0 x2 (ix2 k q) = Cert.Cheby.supp x0 x2 1 k q := by
  rw [val_main_v8_apply]
  unfold Cert.Cheby.supp
  refine Finset.sum_congr rfl fun j _ => ?_
  rw [val_main_v7_apply, val_main_v6_apply]
  have el : lidx_main_v8 (ix2 k q) j = ix2 k j := funext fun a => Fin.ext (by
    match a with
    | ⟨0, _⟩ => rfl
    | ⟨1, _⟩ => rfl)
  have er : idx_main_v6 (idx_main_v7 (ridx_main_v8 (ix2 k q) j)) = ix3 (1 : Fin 4) j q := funext fun a => Fin.ext (by
    match a with
    | ⟨0, _⟩ => rfl
    | ⟨1, _⟩ => show (j.val * 128 + q.val) / 128 % 128 = j.val; omega
    | ⟨2, _⟩ => show (j.val * 128 + q.val) % 128 = q.val; omega)
  rw [el, er]

theorem supp2 (x0 : (⟨S4096x128, .f32⟩ : BufTy).Contents (Elt Ideal))
    (x2 : (⟨S4x128x128, .f32⟩ : BufTy).Contents (Elt Ideal)) (k : Fin 4096) (q : Fin 128) :
    val_main_v14 (F := Ideal) x0 x2 (ix2 k q) = Cert.Cheby.supp x0 x2 2 k q := by
  rw [val_main_v14_apply]
  unfold Cert.Cheby.supp
  refine Finset.sum_congr rfl fun j _ => ?_
  rw [val_main_v13_apply, val_main_v12_apply]
  have el : lidx_main_v14 (ix2 k q) j = ix2 k j := funext fun a => Fin.ext (by
    match a with
    | ⟨0, _⟩ => rfl
    | ⟨1, _⟩ => rfl)
  have er : idx_main_v12 (idx_main_v13 (ridx_main_v14 (ix2 k q) j)) = ix3 (2 : Fin 4) j q := funext fun a => Fin.ext (by
    match a with
    | ⟨0, _⟩ => rfl
    | ⟨1, _⟩ => show (j.val * 128 + q.val) / 128 % 128 = j.val; omega
    | ⟨2, _⟩ => show (j.val * 128 + q.val) % 128 = q.val; omega)
  rw [el, er]

theorem supp3 (x0 : (⟨S4096x128, .f32⟩ : BufTy).Contents (Elt Ideal))
    (x2 : (⟨S4x128x128, .f32⟩ : BufTy).Contents (Elt Ideal)) (k : Fin 4096) (q : Fin 128) :
    val_main_v20 (F := Ideal) x0 x2 (ix2 k q) = Cert.Cheby.supp x0 x2 3 k q := by
  rw [val_main_v20_apply]
  unfold Cert.Cheby.supp
  refine Finset.sum_congr rfl fun j _ => ?_
  rw [val_main_v19_apply, val_main_v18_apply]
  have el : lidx_main_v20 (ix2 k q) j = ix2 k j := funext fun a => Fin.ext (by
    match a with
    | ⟨0, _⟩ => rfl
    | ⟨1, _⟩ => rfl)
  have er : idx_main_v18 (idx_main_v19 (ridx_main_v20 (ix2 k q) j)) = ix3 (3 : Fin 4) j q := funext fun a => Fin.ext (by
    match a with
    | ⟨0, _⟩ => rfl
    | ⟨1, _⟩ => show (j.val * 128 + q.val) / 128 % 128 = j.val; omega
    | ⟨2, _⟩ => show (j.val * 128 + q.val) % 128 = q.val; omega)
  rw [el, er]

/-! ## The products: the d-th adjacency slice against the d-th support matrix

Each product stage is a sum over the contracted axis k of the reshaped adjacency slice at (p, k) times the support at
(k, q). The reshape reads the slice at the row-major position p * 4096 + k, that is at (0, p, k), and the slice reads
the adjacency at (d + 0, p, k). -/

theorem term0 (x0 : (⟨S4096x128, .f32⟩ : BufTy).Contents (Elt Ideal))
    (x1 : (⟨S4x4096x4096, .f32⟩ : BufTy).Contents (Elt Ideal))
    (x2 : (⟨S4x128x128, .f32⟩ : BufTy).Contents (Elt Ideal)) (p : Fin 4096) (q : Fin 128) :
    val_main_v5 (F := Ideal) x0 x1 x2 (ix2 p q) = Cert.Cheby.term x0 x1 x2 0 p q := by
  rw [val_main_v5_apply]
  unfold Cert.Cheby.term
  refine Finset.sum_congr rfl fun k _ => ?_
  rw [val_main_v4_apply, val_main_v3_apply]
  have el : idx_main_v3 (idx_main_v4 (lidx_main_v5 (ix2 p q) k)) = ix3 (0 : Fin 4) p k := funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega)
  have er : ridx_main_v5 (ix2 p q) k = ix2 k q := funext fun a => Fin.ext (by
    match a with
    | ⟨0, _⟩ => rfl
    | ⟨1, _⟩ => rfl)
  rw [el, er, supp0]

theorem term1 (x0 : (⟨S4096x128, .f32⟩ : BufTy).Contents (Elt Ideal))
    (x1 : (⟨S4x4096x4096, .f32⟩ : BufTy).Contents (Elt Ideal))
    (x2 : (⟨S4x128x128, .f32⟩ : BufTy).Contents (Elt Ideal)) (p : Fin 4096) (q : Fin 128) :
    val_main_v11 (F := Ideal) x0 x1 x2 (ix2 p q) = Cert.Cheby.term x0 x1 x2 1 p q := by
  rw [val_main_v11_apply]
  unfold Cert.Cheby.term
  refine Finset.sum_congr rfl fun k _ => ?_
  rw [val_main_v10_apply, val_main_v9_apply]
  have el : idx_main_v9 (idx_main_v10 (lidx_main_v11 (ix2 p q) k)) = ix3 (1 : Fin 4) p k := funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega)
  have er : ridx_main_v11 (ix2 p q) k = ix2 k q := funext fun a => Fin.ext (by
    match a with
    | ⟨0, _⟩ => rfl
    | ⟨1, _⟩ => rfl)
  rw [el, er, supp1]

theorem term2 (x0 : (⟨S4096x128, .f32⟩ : BufTy).Contents (Elt Ideal))
    (x1 : (⟨S4x4096x4096, .f32⟩ : BufTy).Contents (Elt Ideal))
    (x2 : (⟨S4x128x128, .f32⟩ : BufTy).Contents (Elt Ideal)) (p : Fin 4096) (q : Fin 128) :
    val_main_v17 (F := Ideal) x0 x1 x2 (ix2 p q) = Cert.Cheby.term x0 x1 x2 2 p q := by
  rw [val_main_v17_apply]
  unfold Cert.Cheby.term
  refine Finset.sum_congr rfl fun k _ => ?_
  rw [val_main_v16_apply, val_main_v15_apply]
  have el : idx_main_v15 (idx_main_v16 (lidx_main_v17 (ix2 p q) k)) = ix3 (2 : Fin 4) p k := funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega)
  have er : ridx_main_v17 (ix2 p q) k = ix2 k q := funext fun a => Fin.ext (by
    match a with
    | ⟨0, _⟩ => rfl
    | ⟨1, _⟩ => rfl)
  rw [el, er, supp2]

theorem term3 (x0 : (⟨S4096x128, .f32⟩ : BufTy).Contents (Elt Ideal))
    (x1 : (⟨S4x4096x4096, .f32⟩ : BufTy).Contents (Elt Ideal))
    (x2 : (⟨S4x128x128, .f32⟩ : BufTy).Contents (Elt Ideal)) (p : Fin 4096) (q : Fin 128) :
    val_main_v23 (F := Ideal) x0 x1 x2 (ix2 p q) = Cert.Cheby.term x0 x1 x2 3 p q := by
  rw [val_main_v23_apply]
  unfold Cert.Cheby.term
  refine Finset.sum_congr rfl fun k _ => ?_
  rw [val_main_v22_apply, val_main_v21_apply]
  have el : idx_main_v21 (idx_main_v22 (lidx_main_v23 (ix2 p q) k)) = ix3 (3 : Fin 4) p k := funext fun a => Fin.ext (by
    match a with
    | ⟨0, _⟩ => rfl
    | ⟨1, _⟩ => show (p.val * 4096 + k.val) / 4096 % 4096 = p.val; omega
    | ⟨2, _⟩ => show (p.val * 4096 + k.val) % 4096 = k.val; omega)
  have er : ridx_main_v23 (ix2 p q) k = ix2 k q := funext fun a => Fin.ext (by
    match a with
    | ⟨0, _⟩ => rfl
    | ⟨1, _⟩ => rfl)
  rw [el, er, supp3]

/-! ## The bias row broadcast over the rows -/

/-- The twice-broadcast bias at (p, q) is the bias at q, whatever the row p. -/
theorem bias_at (x3 : (⟨S128, .f32⟩ : BufTy).Contents (Elt Ideal)) (p : Fin 4096) (q : Fin 128) :
    val_main_v28 (F := Ideal) x3 (ix2 p q) = x3 (ix1 q) := by
  rw [val_main_v28_apply, val_main_v27_apply]
  have e : idx_main_v27 (idx_main_v28 (ix2 p q)) = ix1 q := funext fun a => Fin.ext (by
    match a with
    | ⟨0, _⟩ => rfl)
  rw [e]

/-! ## The assembly -/

/-- The reference's result, as the generated stage of its last operation, is the convolution of its arguments. -/
theorem ref_is_conv (x0 : (⟨S4096x128, .f32⟩ : BufTy).Contents (Elt Ideal)) (x1 : (⟨S4x4096x4096, .f32⟩ : BufTy).Contents (Elt Ideal))
    (x2 : (⟨S4x128x128, .f32⟩ : BufTy).Contents (Elt Ideal)) (x3 : (⟨S128, .f32⟩ : BufTy).Contents (Elt Ideal)) :
    val_main_v29 (F := Ideal) x0 x1 x2 x3 = Cert.Cheby.conv x0 x1 x2 x3 := by
  funext i
  obtain ⟨p, q, rfl⟩ : ∃ (p : Fin 4096) (q : Fin 128), i = ix2 p q := ⟨i 0, i 1, eq_ix2 i⟩
  rw [val_main_v29_apply, val_main_v26_apply, val_main_v25_apply, val_main_v24_apply,
    term0, term1, term2, term3, bias_at, Cert.Cheby.conv_apply]
  exact Cert.Cheby.products_then_bias x0 x1 x2 x3 p q

end Cert.Cheby.RefSide

end
-- ==== Proof.lean ====
/-
  A Chebyshev graph convolution, out = bias + Σ_i adj[i] · (input · weight[i]) over four degrees, as one Pallas kernel
  on a (degree, row tile) grid against the plain jnp reference.

  The kernel keeps the whole [4096, 128] output resident and a scratch for the support matrix S_i = input · weight[i]:
  at row tile 0 of each degree it stores S_i, at the very first point it sets every output row to the bias, and at
  every point it adds the adjacency tile times S_i into the tile's 1024 rows. After point n (degree n / 4, tile n % 4)
  row p holds the bias plus the products of the first n / 4 degrees, and the product of degree n / 4 too once its tile
  has been visited; after the sixteenth point every row holds the bias plus all four products, added in order of
  degree. The reference adds the four products first and the bias last. Addition of extended reals is commutative
  and associative, so the two agree index by index with no finiteness of the inputs needed.

  The frames of the kernel at both instances come from the same run of its body, case by case (first point, a
  later tile 0, any other point), with the output's staging buffer and the scratch carried at named contents; the
  reference's frame is its run with the result dropped. The idealization rewrote nothing.
-/
import proofs.«167788_g32186484916413_cont_8to1_b_1688_10_alg».proof.Defs
import proofs.«167788_g32186484916413_cont_8to1_b_1688_10_alg».proof.Proof.Gen.Kernel
import proofs.«167788_g32186484916413_cont_8to1_b_1688_10_alg».proof.Proof.Gen.KernelIdeal
import proofs.«167788_g32186484916413_cont_8to1_b_1688_10_alg».proof.Proof.Gen.ReferenceIdeal
import proofs.«167788_g32186484916413_cont_8to1_b_1688_10_alg».proof.Proof.Gen.Pre_finite_inputs
import proofs.«167788_g32186484916413_cont_8to1_b_1688_10_alg».proof.Proof.Gen.ReferenceIdeal.Run
import proofs.«167788_g32186484916413_cont_8to1_b_1688_10_alg».proof.Proof.Gen.ReferenceIdeal.Read
import proofs.«167788_g32186484916413_cont_8to1_b_1688_10_alg».proof.Proof.KernelBody.Frame
import proofs.«167788_g32186484916413_cont_8to1_b_1688_10_alg».proof.Proof.KernelIdealBody.Frame
import proofs.«167788_g32186484916413_cont_8to1_b_1688_10_alg».proof.Proof.KernelValue.Final
import proofs.«167788_g32186484916413_cont_8to1_b_1688_10_alg».proof.Proof.RefSide
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Body.frame m ρ

/-- The idealized kernel runs and keeps its arguments. -/
theorem frame_kernelIdeal : Cert.frame_KernelIdeal := fun m ρ _ => Cert.KernelIdeal.Body.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the convolution of the (agreeing) arguments in their result arrays. -/
theorem algebraic : Cert.algebraic_KernelIdeal_ReferenceIdeal := by
  intro m ρ m' ρ' _ hagree
  refine ⟨fun c => Cert.Cheby.Final.result m c, Cert.Cheby.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v29_eq (F := Ideal) _ _ _ _).trans (Cert.Cheby.RefSide.ref_is_conv _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
